-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x512 : Shape := ⟨3, ![32, 256, 512]⟩
abbrev S20x512 : Shape := ⟨2, ![20, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S20x512 : S_.BroadcastsInDim S20x512 (![] : Fin 0 → Fin S20x512.rank)
  reducesTo_S20x512_S_d0_1 : S20x512.ReducesTo [0, 1] S_

variable [Facts]

def fn {F : FTy → Type} [FloatOps F] (main_arg0 : FVec F S32x256x512 .f32) (main_arg1 : FVec F S32x256x512 .f32) (main_arg2 : FVec F S20x512 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S32x256x512 .f32 := Host.absf main_arg1
  let main_cst_0 : FVec F S_ .f32 := constant S_ .f32 0x7F800000#32
  let main_v5 : FVec F S32x256x512 .f32 := broadcastInDim S32x256x512 ![] bcast_S_S32x256x512 main_cst_0
  let main_v6 : IVec S32x256x512 1 := cmpf .olt main_v4 main_v5
  let main_c_1 : IVec S_ 1 := constantI S_ 1 1#1
  let main_v7 : IVec S_ 1 := (fun x v => Host.reduce IntOp.andi x v reducesTo_S32x256x512_S_d0_1_2 h_S_) main_v6 main_c_1
  let main_v8 : IVec S_ 1 := andi main_v3 main_v7
  let main_v9 : FVec F S20x512 .f32 := Host.absf main_arg2
  let main_cst_2 : FVec F S_ .f32 := constant S_ .f32 0x7F800000#32
  let main_v10 : FVec F S20x512 .f32 := broadcastInDim S20x512 ![] bcast_S_S20x512 main_cst_2
  let main_v11 : IVec S20x512 1 := cmpf .olt main_v9 main_v10
  let main_c_3 : IVec S_ 1 := constantI S_ 1 1#1
  let main_v12 : IVec S_ 1 := (fun x v => Host.reduce IntOp.andi x v reducesTo_S20x512_S_d0_1 h_S_) main_v11 main_c_3
  let main_v13 : IVec S_ 1 := andi main_v8 main_v12
  main_v13
-- ==== Kernel.lean ====
abbrev S32x256x512 : Shape := ⟨3, ![32, 256, 512]⟩
abbrev S20x512 : Shape := ⟨2, ![20, 512]⟩
abbrev S32x256x20 : Shape := ⟨3, ![32, 256, 20]⟩
abbrev S1x256x512 : Shape := ⟨3, ![1, 256, 512]⟩
abbrev S1x256x20 : Shape := ⟨3, ![1, 256, 20]⟩
abbrev S256x512 : Shape := ⟨2, ![256, 512]⟩
abbrev S256 : Shape := ⟨1, ![256]⟩
abbrev S256x1 : Shape := ⟨2, ![256, 1]⟩
abbrev S512x512 : Shape := ⟨2, ![512, 512]⟩
abbrev S512 : Shape := ⟨1, ![512]⟩
abbrev S1x512 : Shape := ⟨2, ![1, 512]⟩
abbrev S256x20 : Shape := ⟨2, ![256, 20]⟩

abbrev nBuf : Space → Nat
  | .hbm => 4
  | .vmem => 7
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S20x512, .f32⟩
  | .hbm, ⟨3, _⟩ => ⟨S32x256x20, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S20x512, .f32⟩
  | .local _ .vmem, ⟨5, _⟩ => ⟨S1x256x20, .f32⟩
  | .local _ .vmem, ⟨6, _⟩ => ⟨S1x256x20, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S20x512_S20x512_0_0 : ∀ a, (![0, 0] : Fin 2 → Nat) a + S20x512.size a ≤ S20x512.size a
  h_S20x512 : 0 < S20x512.numel
  reduces_S256x512_S256 : S256x512.Reduces [1] S256
  shapeCasts_S256_S256x1 : S256.ShapeCasts S256x1
  broadcasts_S256x1_S256x512 : S256x1.Broadcasts S256x512
  bitsLt_bf16_f32 : FTy.bits .bf16 < FTy.bits .f32
  reduces_S512x512_S512 : S512x512.Reduces [0] S512
  shapeCasts_S512_S1x512 : S512.ShapeCasts S1x512
  broadcasts_S1x512_S512x512 : S1x512.Broadcasts S512x512
  inb_S1x256x20_S1x256x20_0_0_0 : ∀ a, (![0, 0, 0] : Fin 3 → Nat) a + S1x256x20.size a ≤ S1x256x20.size a
  h_S1x256x20 : 0 < S1x256x20.numel
  shapeCasts_S1x256x20_S256x20 : S1x256x20.ShapeCasts S256x20
  shapeCasts_S256x20_S1x256x20 : S256x20.ShapeCasts S1x256x20
  dot_S256x512_S256x512_S512x512_0_0_1_1_n_n_wf : DotDims.WF S256x512 S256x512 S512x512 [0] [0] [1] [1] [] []
  dot_S256x512_S512x512_S256x512_1_0_0_1_n_n_wf : DotDims.WF S256x512 S512x512 S256x512 [1] [0] [0] [1] [] []
  dot_S256x512_S20x512_S256x20_1_1_0_0_n_n_wf : DotDims.WF S256x512 S20x512 S256x20 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S32x256x512.size a
  hwx0_0 : ∀ i : grid0.Coords, EltTy.bits .f32 = 32 ∨ (Rect.block (s := S32x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S32x256x512.size a
  hwx0_1 : ∀ i : grid0.Coords, EltTy.bits .f32 = 32 ∨ (Rect.block (s := S32x256x512) S1x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x512.size a ≤ S20x512.size a
  hwx0_2 : ∀ i : grid0.Coords, EltTy.bits .f32 = 32 ∨ (Rect.block (s := S20x512) S20x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x20.size a ≤ S32x256x20.size a
  hwx0_3 : ∀ i : grid0.Coords, EltTy.bits .f32 = 32 ∨ (Rect.block (s := S32x256x20) S1x256x20.size (cc0_transform_3 i) (hinb0_3 i)).WholeWords (EltTy.packing .f32)

variable [Facts₀]

def dot_S256x512_S256x512_S512x512_0_0_1_1_n_n : DotDims S256x512 S256x512 S512x512 where
  lhsContracting := [0]
  rhsContracting := [0]
  lhsNonContracting := [1]
  rhsNonContracting := [1]
  lhsBatch := []
  rhsBatch := []
  wf := dot_S256x512_S256x512_S512x512_0_0_1_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S20x512_S256x20_1_1_0_0_n_n : DotDims S256x512 S20x512 S256x20 where
  lhsContracting := [1]
  rhsContracting := [1]
  lhsNonContracting := [0]
  rhsNonContracting := [0]
  lhsBatch := []
  rhsBatch := []
  wf := dot_S256x512_S20x512_S256x20_1_1_0_0_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x512 : Shape := ⟨3, ![32, 256, 512]⟩
abbrev S20x512 : Shape := ⟨2, ![20, 512]⟩
abbrev S_ : Shape := ⟨0, ![]⟩
abbrev S32x256 : Shape := ⟨2, ![32, 256]⟩
abbrev S32x256x1 : Shape := ⟨3, ![32, 256, 1]⟩
abbrev S32x512x512 : Shape := ⟨3, ![32, 512, 512]⟩
abbrev S32x512 : Shape := ⟨2, ![32, 512]⟩
abbrev S32x1x512 : Shape := ⟨3, ![32, 1, 512]⟩
abbrev S32x256x1x512 : Shape := ⟨4, ![32, 256, 1, 512]⟩
abbrev S1x1x20x512 : Shape := ⟨4, ![1, 1, 20, 512]⟩
abbrev S32x256x20x512 : Shape := ⟨4, ![32, 256, 20, 512]⟩
abbrev S32x256x20 : Shape := ⟨3, ![32, 256, 20]⟩
abbrev S32x256x20x1 : Shape := ⟨4, ![32, 256, 20, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S20x512, .f32⟩
  | .hbm, ⟨3, _⟩ => ⟨S32x256x512, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S32x256x1, .f32⟩
  | .hbm, ⟨11, _⟩ => ⟨S32x256x512, .f32⟩
  | .hbm, ⟨12, _⟩ => ⟨S32x256x512, .f32⟩
  | .hbm, ⟨13, _⟩ => ⟨S32x256x512, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x512, .f32⟩
  | .hbm, ⟨22, _⟩ => ⟨S32x256x512, .f32⟩
  | .hbm, ⟨23, _⟩ => ⟨S32x512x512, .f32⟩
  | .hbm, ⟨24, _⟩ => ⟨S32x512x512, .f32⟩
  | .hbm, ⟨25, _⟩ => ⟨S_, .f32⟩
  | .hbm, ⟨26, _⟩ => ⟨S32x512, .f32⟩
  | .hbm, ⟨27, _⟩ => ⟨S32x1x512, .f32⟩
  | .hbm, ⟨28, _⟩ => ⟨S_, .f32⟩
  | .hbm, ⟨29, _⟩ => ⟨S32x1x512, .f32⟩
  | .hbm, ⟨30, _⟩ => ⟨S32x1x512, .f32⟩
  | .hbm, ⟨31, _⟩ => ⟨S32x1x512, .f32⟩
  | .hbm, ⟨32, _⟩ => ⟨S32x512x512, .f32⟩
  | .hbm, ⟨33, _⟩ => ⟨S32x512x512, .f32⟩
  | .hbm, ⟨34, _⟩ => ⟨S32x256x512, .f32⟩
  | .hbm, ⟨35, _⟩ => ⟨S32x256x1x512, .f32⟩
  | .hbm, ⟨36, _⟩ => ⟨S1x1x20x512, .f32⟩
  | .hbm, ⟨37, _⟩ => ⟨S32x256x20x512, .f32⟩
  | .hbm, ⟨38, _⟩ => ⟨S32x256x20x512, .f32⟩
  | .hbm, ⟨39, _⟩ => ⟨S32x256x20x512, .f32⟩
  | .hbm, ⟨40, _⟩ => ⟨S32x256x20x512, .f32⟩
  | .hbm, ⟨41, _⟩ => ⟨S_, .f32⟩
  | .hbm, ⟨42, _⟩ => ⟨S32x256x20, .f32⟩
  | .hbm, ⟨43, _⟩ => ⟨S32x256x20x1, .f32⟩
  | .hbm, ⟨44, _⟩ => ⟨S_, .f32⟩
  | .hbm, ⟨45, _⟩ => ⟨S32x256x20x1, .f32⟩
  | .hbm, ⟨46, _⟩ => ⟨S32x256x20x1, .f32⟩
  | .hbm, ⟨47, _⟩ => ⟨S32x256x20x1, .f32⟩
  | .hbm, ⟨48, _⟩ => ⟨S32x256x20x512, .f32⟩
  | .hbm, ⟨49, _⟩ => ⟨S32x256x20x512, .f32⟩
  | .hbm, ⟨50, _⟩ => ⟨S32x256x1x512, .f32⟩
  | .hbm, ⟨51, _⟩ => ⟨S1x1x20x512, .f32⟩
  | .hbm, ⟨52, _⟩ => ⟨S32x256x20x512, .f32⟩
  | .hbm, ⟨53, _⟩ => ⟨S32x256x20x512, .f32⟩
  | .hbm, ⟨54, _⟩ => ⟨S32x256x20x512, .f32⟩
  | .hbm, ⟨55, _⟩ => ⟨S32x256x20x512, .f32⟩
  | .hbm, ⟨56, _⟩ => ⟨S_, .f32⟩
  | .hbm, ⟨57, _⟩ => ⟨S32x256x20, .f32⟩
  | .hbm, ⟨58, _⟩ => ⟨S32x256x20x1, .f32⟩
  | .hbm, ⟨59, _⟩ => ⟨S_, .f32⟩
  | .hbm, ⟨60, _⟩ => ⟨S32x256x20x1, .f32⟩
  | .hbm, ⟨61, _⟩ => ⟨S32x256x20x1, .f32⟩
  | .hbm, ⟨62, _⟩ => ⟨S32x256x20x1, .f32⟩
  | .hbm, ⟨63, _⟩ => ⟨S32x256x20x512, .f32⟩
  | .hbm, ⟨64, _⟩ => ⟨S32x256x20x512, .f32⟩
  | .hbm, ⟨65, _⟩ => ⟨S32x256x20x512, .f32⟩
  | .hbm, ⟨66, _⟩ => ⟨S_, .f32⟩
  | .hbm, ⟨67, _⟩ => ⟨S32x256x20, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩

abbrev nD : Nat := 1
abbrev τ : Topo := Topo.v7x

variable {F : FTy → Type} [FloatOps F]

class Facts₀ : Prop where
  reducesTo_S32x256x512_S32x256_d2 : S32x256x512.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x512_0_1_2 : S32x256x1.BroadcastsInDim S32x256x512 (![0, 1, 2] : Fin 3 → Fin S32x256x512.rank)
  reducesTo_S32x512x512_S32x512_d1 : S32x512x512.ReducesTo [1] S32x512
  bcast_S32x512_S32x1x512_0_2 : S32x512.BroadcastsInDim S32x1x512 (![0, 2] : Fin 2 → Fin S32x1x512.rank)
  bcast_S_S32x1x512 : S_.BroadcastsInDim S32x1x512 (![] : Fin 0 → Fin S32x1x512.rank)
  bcast_S32x1x512_S32x512x512_0_1_2 : S32x1x512.BroadcastsInDim S32x512x512 (![0, 1, 2] : Fin 3 → Fin S32x512x512.rank)
  bcast_S32x256x512_S32x256x1x512_0_1_3 : S32x256x512.BroadcastsInDim S32x256x1x512 (![0, 1, 3] : Fin 3 → Fin S32x256x1x512.rank)
  bcast_S20x512_S1x1x20x512_2_3 : S20x512.BroadcastsInDim S1x1x20x512 (![2, 3] : Fin 2 → Fin S1x1x20x512.rank)
  bcast_S32x256x1x512_S32x256x20x512_0_1_2_3 : S32x256x1x512.BroadcastsInDim S32x256x20x512 (![0, 1, 2, 3] : Fin 4 → Fin S32x256x20x512.rank)
  bcast_S1x1x20x512_S32x256x20x512_0_1_2_3 : S1x1x20x512.BroadcastsInDim S32x256x20x512 (![0, 1, 2, 3] : Fin 4 → Fin S32x256x20x512.rank)
  reducesTo_S32x256x20x512_S32x256x20_d3 : S32x256x20x512.ReducesTo [3] S32x256x20
  bcast_S32x256x20_S32x256x20x1_0_1_2 : S32x256x20.BroadcastsInDim S32x256x20x1 (![0, 1, 2] : Fin 3 → Fin S32x256x20x1.rank)
  bcast_S_S32x256x20x1 : S_.BroadcastsInDim S32x256x20x1 (![] : Fin 0 → Fin S32x256x20x1.rank)
  bcast_S32x256x20x1_S32x256x20x512_0_1_2_3 : S32x256x20x1.BroadcastsInDim S32x256x20x512 (![0, 1, 2, 3] : Fin 4 → Fin S32x256x20x512.rank)
  dot_S32x256x512_S32x256x512_S32x512x512_1_1_2_2_0_0_wf : DotDims.WF S32x256x512 S32x256x512 S32x512x512 [1] [1] [2] [2] [0] [0]
  dot_S32x256x512_S32x512x512_S32x256x512_2_1_1_2_0_0_wf : DotDims.WF S32x256x512 S32x512x512 S32x256x512 [2] [1] [1] [2] [0] [0]

variable [Facts₀]

def dot_S32x256x512_S32x256x512_S32x512x512_1_1_2_2_0_0 : DotDims S32x256x512 S32x256x512 S32x512x512 where
  lhsContracting := [1]
  rhsContracting := [1]
  lhsNonContracting := [2]
  rhsNonContracting := [2]
  lhsBatch := [0]
  rhsBatch := [0]
  wf := dot_S32x256x512_S32x256x512_S32x512x512_1_1_2_2_0_0_wf
def dot_S32x256x512_S32x512x512_S32x256x512_2_1_1_2_0_0 : DotDims S32x256x512 S32x512x512 S32x256x512 where
  lhsContracting := [2]
  rhsContracting := [1]
  lhsNonContracting := [1]
  rhsNonContracting := [2]
  lhsBatch := [0]
  rhsBatch := [0]
  wf := dot_S32x256x512_S32x512x512_S32x256x512_2_1_1_2_0_0_wf

class Facts : Prop extends Facts₀ where

variable [Facts]
-- ==== Proof.Spec.lean ====
/-
  What both programs compute, written once over the extended reals for ONE batch entry: sequences `a`, `b` of `T` rows
  of `D` features and `P` weight rows `W`.

  * every row of `a` and of `b` is divided by `sqrt (max (sum of its squares) eps)` (`rowNormed`);
  * the normalised sequences are correlated over the rows, `corr y x d e = ∑ t, y t d * x t e`, and every COLUMN of that
    `D × D` matrix is normalised the same way (`colNormed`), giving the attention matrix `attn`;
  * `hmean t e = ∑ d, nb t d * attn d e` is the attended sequence;
  * the result is, per row `t` and weight row `p`, the cosine of `a t` and `hmean t` under the weights `W p`, in two
    arrangements: `perspK` takes three weighted sums over the features with the squared weights and divides the mixed one
    by the product of the two guarded roots; `perspR` first scales each row by `W p`, normalises both scaled rows and then
    sums their products. The two agree on real data (`Cert.SpecLaws`).
-/
import Idealize.ShloMosaic.PureOps.Ideal

noncomputable section

namespace Cert.Spec

open scoped BigOperators
open Idealize.ShloMosaic

/-- The guard of every norm: the single-precision word `2B8CBCCC`, about `1e-12`. -/
def eps : EReal := Ideal.ofBits .f32 0x2B8CBCCC#32

/-- The guarded root `sqrt (max s eps)` a sum of squares is divided by. -/
def nrm (s : EReal) : EReal := Ideal.sqrt (max s eps)

variable {T D P N : ℕ}

/-- Every row divided by the guarded root of the sum of its squares. -/
def rowNormed (x : Fin T → Fin D → EReal) (t : Fin T) (d : Fin D) : EReal :=
  Ideal.div (x t d) (nrm (∑ d' : Fin D, x t d' * x t d'))

/-- The correlation of two sequences over their rows. -/
def corr (y x : Fin T → Fin D → EReal) (d e : Fin D) : EReal := ∑ t : Fin T, y t d * x t e

/-- Every column divided by the guarded root of the sum of its squares. -/
def colNormed (al : Fin D → Fin D → EReal) (d e : Fin D) : EReal :=
  Ideal.div (al d e) (nrm (∑ d' : Fin D, al d' e * al d' e))

/-- The attention matrix: the correlation of the normalised `b` with the normalised `a`, its columns normalised. -/
def attn (a b : Fin T → Fin D → EReal) : Fin D → Fin D → EReal :=
  colNormed (corr (rowNormed b) (rowNormed a))

/-- The attended sequence. -/
def hmean (a b : Fin T → Fin D → EReal) (t : Fin T) (e : Fin D) : EReal :=
  ∑ d : Fin D, rowNormed b t d * attn a b d e

/-- The weighted cosine from three sums with the squared weights. -/
def perspK (a h : Fin T → Fin D → EReal) (W : Fin P → Fin D → EReal) (t : Fin T) (p : Fin P) : EReal :=
  Ideal.div (∑ d : Fin D, (a t d * h t d) * (W p d * W p d))
    (Ideal.sqrt (max (∑ d : Fin D, (a t d * a t d) * (W p d * W p d)) eps)
      * Ideal.sqrt (max (∑ d : Fin D, (h t d * h t d) * (W p d * W p d)) eps))

/-- The weighted cosine as the sum of products of the two scaled and normalised rows. -/
def perspR (a h : Fin T → Fin D → EReal) (W : Fin P → Fin D → EReal) (t : Fin T) (p : Fin P) : EReal :=
  ∑ d : Fin D,
    Ideal.div (a t d * W p d) (nrm (∑ d' : Fin D, (a t d' * W p d') * (a t d' * W p d')))
      * Ideal.div (h t d * W p d) (nrm (∑ d' : Fin D, (h t d' * W p d') * (h t d' * W p d')))

end Cert.Spec

end
-- ==== Proof.LibMoments.lean ====
/-
  General lemmas on Mathlib's extended reals: coercion of finite sums, the two forms of a
  variance (mean of squares minus squared mean, against mean of squared deviations) over REAL
  data, the closure of "is a real number" under the arithmetic used downstream, the collapse
  of a tile-by-tile accumulation into one sum, and one-hot weighted sums as filtered sums.
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Analysis.SpecialFunctions.Pow.Real
import Mathlib.Tactic.Ring
import Mathlib.Tactic.FieldSimp

namespace Cert.LibMoments

open scoped BigOperators
open Idealize.ShloMosaic

/-! ### 1. Coercion of a finite sum -/

/-- The coercion of the reals into the extended reals carries a finite sum (over a finset) to
    the sum of the coercions. -/
theorem coe_finset_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

/-- The coercion carries a sum over a finite type to the sum of the coercions. -/
theorem coe_sum {ι : Type*} [Fintype ι] (r : ι → ℝ) :
    ((∑ i, r i : ℝ) : EReal) = ∑ i, ((r i : ℝ) : EReal) :=
  coe_finset_sum Finset.univ r

/-- The same with an initial summand 0: 0 plus the sum of the coercions is the coercion of
    the real sum. -/
theorem coe_sum_zero_add {ι : Type*} [Fintype ι] (r : ι → ℝ) :
    (0 : EReal) + ∑ i, ((r i : ℝ) : EReal) = ((∑ i, r i : ℝ) : EReal) := by
  rw [zero_add, coe_sum]

/-! ### 4. Being a real number -/

/-- An extended real IS REAL when it is the coercion of a real number. -/
def IsReal (x : EReal) : Prop := ∃ r : ℝ, x = (r : EReal)

/-- Being real is being neither the top nor the bottom element. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

namespace IsReal

/-- A coercion is real. -/
theorem coe (r : ℝ) : IsReal (r : EReal) := ⟨r, rfl⟩
/-- Zero is real. -/
theorem zero : IsReal 0 := ⟨0, EReal.coe_zero.symm⟩
/-- One is real. -/
theorem one : IsReal 1 := ⟨1, EReal.coe_one.symm⟩
/-- A natural number is real. -/
theorem natCast (n : ℕ) : IsReal (n : EReal) := ⟨(n : ℝ), (EReal.coe_coe_eq_natCast n).symm⟩

variable {x y : EReal}

/-- A real is not the top element. -/
theorem ne_top (hx : IsReal x) : x ≠ ⊤ := (isReal_iff.1 hx).1
/-- A real is not the bottom element. -/
theorem ne_bot (hx : IsReal x) : x ≠ ⊥ := (isReal_iff.1 hx).2

/-- The sum of two reals is real. -/
theorem add (hx : IsReal x) (hy : IsReal y) : IsReal (x + y) := by
  obtain ⟨a, rfl⟩ := hx; obtain ⟨b, rfl⟩ := hy; exact ⟨a + b, (EReal.coe_add a b).symm⟩
/-- The difference of two reals is real. -/
theorem sub (hx : IsReal x) (hy : IsReal y) : IsReal (x - y) := by
  obtain ⟨a, rfl⟩ := hx; obtain ⟨b, rfl⟩ := hy; exact ⟨a - b, (EReal.coe_sub a b).symm⟩
/-- The product of two reals is real. -/
theorem mul (hx : IsReal x) (hy : IsReal y) : IsReal (x * y) := by
  obtain ⟨a, rfl⟩ := hx; obtain ⟨b, rfl⟩ := hy; exact ⟨a * b, (EReal.coe_mul a b).symm⟩
/-- The opposite of a real is real. -/
theorem neg (hx : IsReal x) : IsReal (-x) := by
  obtain ⟨a, rfl⟩ := hx; exact ⟨-a, (EReal.coe_neg a).symm⟩
/-- The larger of two reals is real. -/
theorem max (hx : IsReal x) (hy : IsReal y) : IsReal (max x y) := by
  rcases le_total x y with h | h
  · rwa [max_eq_right h]
  · rwa [max_eq_left h]
/-- The smaller of two reals is real. -/
theorem min (hx : IsReal x) (hy : IsReal y) : IsReal (min x y) := by
  rcases le_total x y with h | h
  · rwa [min_eq_left h]
  · rwa [min_eq_right h]
/-- The extended reals' inverse of a real is real (the inverse of 0 is 0 there). -/
theorem inv (hx : IsReal x) : IsReal x⁻¹ := by
  obtain ⟨a, rfl⟩ := hx; exact ⟨a⁻¹, (EReal.coe_inv a).symm⟩
/-- A real times the inverse of a real is real. -/
theorem mul_inv_coe (hx : IsReal x) (c : ℝ) : IsReal (x * ((c : ℝ) : EReal)⁻¹) :=
  hx.mul (IsReal.coe c).inv

/-- A finite sum of reals is real. -/
theorem finset_sum {ι : Type*} (s : Finset ι) (f : ι → EReal) (h : ∀ i ∈ s, IsReal (f i)) :
    IsReal (∑ i ∈ s, f i) :=
  Finset.sum_induction f IsReal (fun _ _ => IsReal.add) IsReal.zero h
/-- A sum of reals over a finite type is real. -/
theorem sum {ι : Type*} [Fintype ι] (f : ι → EReal) (h : ∀ i, IsReal (f i)) :
    IsReal (∑ i, f i) :=
  finset_sum _ f fun i _ => h i
/-- An initial 0 plus a sum of reals over a finite type is real. -/
theorem zero_add_sum {ι : Type*} [Fintype ι] (f : ι → EReal) (h : ∀ i, IsReal (f i)) :
    IsReal (0 + ∑ i, f i) :=
  IsReal.zero.add (sum f h)
/-- A real initial value plus a sum of reals over a finite type is real. -/
theorem add_sum {ι : Type*} [Fintype ι] {z : EReal} (hz : IsReal z) (f : ι → EReal)
    (h : ∀ i, IsReal (f i)) : IsReal (z + ∑ i, f i) :=
  hz.add (sum f h)

end IsReal

/-- The ideal quotient by a nonzero real is the product with the extended reals' inverse. -/
theorem div_coe_eq_mul_inv {c : ℝ} (hc : c ≠ 0) (x : EReal) :
    Ideal.div x ((c : ℝ) : EReal) = x * ((c : ℝ) : EReal)⁻¹ := by
  rw [Ideal.div, if_neg (by exact_mod_cast hc)]

/-- The ideal quotient of a real by a nonzero real is real. -/
theorem IsReal.div_coe {x : EReal} (hx : IsReal x) {c : ℝ} (hc : c ≠ 0) :
    IsReal (Ideal.div x ((c : ℝ) : EReal)) := by
  rw [div_coe_eq_mul_inv hc]; exact hx.mul_inv_coe c

/-- The ideal quotient of two coerced reals, the divisor nonzero, is the coerced real quotient. -/
theorem div_coe_coe (a : ℝ) {c : ℝ} (hc : c ≠ 0) :
    Ideal.div ((a : ℝ) : EReal) ((c : ℝ) : EReal) = ((a / c : ℝ) : EReal) := by
  rw [div_coe_eq_mul_inv hc, ← EReal.coe_inv, ← EReal.coe_mul, div_eq_mul_inv]

/-- The ideal reciprocal square root of a positive real v is the coercion of (√v)⁻¹. -/
theorem rsqrt_coe_pos {v : ℝ} (hv : 0 < v) :
    Ideal.rsqrt ((v : ℝ) : EReal) = (((Real.sqrt v)⁻¹ : ℝ) : EReal) := by
  rw [Ideal.rsqrt_coe, if_neg (not_lt.2 hv.le), if_neg hv.ne']

/-- The ideal reciprocal square root of a positive real is real. -/
theorem IsReal.rsqrt_coe_pos {v : ℝ} (hv : 0 < v) : IsReal (Ideal.rsqrt ((v : ℝ) : EReal)) :=
  ⟨_, Cert.LibMoments.rsqrt_coe_pos hv⟩

/-- The ideal reciprocal square root of a positive real is a positive real. -/
theorem rsqrt_coe_pos' {v : ℝ} (hv : 0 < v) :
    ∃ w : ℝ, 0 < w ∧ Ideal.rsqrt ((v : ℝ) : EReal) = (w : EReal) :=
  ⟨(Real.sqrt v)⁻¹, inv_pos.2 (Real.sqrt_pos.2 hv), rsqrt_coe_pos hv⟩

/-! ### 2. The two forms of a variance -/

section Variance
variable {ι : Type*} [Fintype ι]

/-- Over the reals: the mean of the squares minus the square of the mean is the mean of the
    squared deviations from the mean (N the number of data, nonzero). -/
theorem real_variance_two_forms (r : ι → ℝ) (N : ℝ) (hN : N ≠ 0)
    (hcard : (Fintype.card ι : ℝ) = N) :
    (∑ i, r i * r i) * N⁻¹ - (∑ i, r i) * N⁻¹ * ((∑ i, r i) * N⁻¹)
      = (∑ i, (r i - (∑ i, r i) * N⁻¹) * (r i - (∑ i, r i) * N⁻¹)) * N⁻¹ := by
  set S := ∑ i, r i with hS
  set μ := S * N⁻¹ with hμ
  have h1 : ∑ i, (r i - μ) * (r i - μ) = (∑ i, r i * r i) - 2 * μ * S + N * (μ * μ) := by
    have h2 : ∀ i, (r i - μ) * (r i - μ) = r i * r i - 2 * μ * r i + μ * μ := fun i => by ring
    simp only [h2]
    rw [Finset.sum_add_distrib, Finset.sum_sub_distrib, ← Finset.mul_sum, Finset.sum_const,
      Finset.card_univ, nsmul_eq_mul, hcard]
  have h3 : S = μ * N := by rw [hμ]; field_simp
  rw [h1, h3]
  field_simp
  ring

/-- Over the extended reals, for REAL data r: with S the sum of the data, Q the sum of their
    squares and μ = S · N⁻¹, one has Q · N⁻¹ − μ · μ = (∑ (r − μ) · (r − μ)) · N⁻¹
    (N the number of data, nonzero). -/
theorem variance_two_forms (r : ι → ℝ) (N : ℝ) (hN : N ≠ 0) (hcard : (Fintype.card ι : ℝ) = N) :
    (∑ i, ((r i : ℝ) : EReal) * ((r i : ℝ) : EReal)) * ((N : ℝ) : EReal)⁻¹
        - (∑ i, ((r i : ℝ) : EReal)) * ((N : ℝ) : EReal)⁻¹
          * ((∑ i, ((r i : ℝ) : EReal)) * ((N : ℝ) : EReal)⁻¹)
      = (∑ i, (((r i : ℝ) : EReal) - (∑ i, ((r i : ℝ) : EReal)) * ((N : ℝ) : EReal)⁻¹)
            * (((r i : ℝ) : EReal) - (∑ i, ((r i : ℝ) : EReal)) * ((N : ℝ) : EReal)⁻¹))
          * ((N : ℝ) : EReal)⁻¹ := by
  simp only [← EReal.coe_mul, ← coe_sum, ← EReal.coe_inv, ← EReal.coe_sub]
  rw [real_variance_two_forms r N hN hcard]

/-- The same law with each sum preceded by the initial value 0 and each division written as the
    ideal quotient by the real N. -/
theorem variance_two_forms_div (r : ι → ℝ) (N : ℝ) (hN : N ≠ 0)
    (hcard : (Fintype.card ι : ℝ) = N) :
    Ideal.div (0 + ∑ i, ((r i : ℝ) : EReal) * ((r i : ℝ) : EReal)) ((N : ℝ) : EReal)
        - Ideal.div (0 + ∑ i, ((r i : ℝ) : EReal)) ((N : ℝ) : EReal)
          * Ideal.div (0 + ∑ i, ((r i : ℝ) : EReal)) ((N : ℝ) : EReal)
      = Ideal.div
          (0 + ∑ i, (((r i : ℝ) : EReal) - Ideal.div (0 + ∑ i, ((r i : ℝ) : EReal)) ((N : ℝ) : EReal))
            * (((r i : ℝ) : EReal) - Ideal.div (0 + ∑ i, ((r i : ℝ) : EReal)) ((N : ℝ) : EReal)))
          ((N : ℝ) : EReal) := by
  simp only [zero_add, div_coe_eq_mul_inv hN]
  exact variance_two_forms r N hN hcard

/-- The law for extended-real data every entry of which is real, with the sum S, the sum of
    squares Q and the mean μ named by equations (so that a caller may present them in any
    syntactic form, for instance with an initial 0). -/
theorem variance_two_forms_of_isReal (x : ι → EReal) (hx : ∀ i, IsReal (x i)) (N : ℝ) (hN : N ≠ 0)
    (hcard : (Fintype.card ι : ℝ) = N) (S Q μ : EReal) (hS : S = ∑ i, x i)
    (hQ : Q = ∑ i, x i * x i) (hμ : μ = S * ((N : ℝ) : EReal)⁻¹) :
    Q * ((N : ℝ) : EReal)⁻¹ - μ * μ = (∑ i, (x i - μ) * (x i - μ)) * ((N : ℝ) : EReal)⁻¹ := by
  choose r hr using hx
  obtain rfl : x = fun i => ((r i : ℝ) : EReal) := funext hr
  subst hμ; subst hS; subst hQ
  exact variance_two_forms r N hN hcard

/-- The law for extended-real data every entry of which is real, in the shape "initial 0 plus
    the sum, ideal quotient by N". -/
theorem variance_two_forms_div_of_isReal (x : ι → EReal) (hx : ∀ i, IsReal (x i)) (N : ℝ)
    (hN : N ≠ 0) (hcard : (Fintype.card ι : ℝ) = N) :
    Ideal.div (0 + ∑ i, x i * x i) ((N : ℝ) : EReal)
        - Ideal.div (0 + ∑ i, x i) ((N : ℝ) : EReal) * Ideal.div (0 + ∑ i, x i) ((N : ℝ) : EReal)
      = Ideal.div
          (0 + ∑ i, (x i - Ideal.div (0 + ∑ i, x i) ((N : ℝ) : EReal))
            * (x i - Ideal.div (0 + ∑ i, x i) ((N : ℝ) : EReal)))
          ((N : ℝ) : EReal) := by
  choose r hr using hx
  obtain rfl : x = fun i => ((r i : ℝ) : EReal) := funext hr
  exact variance_two_forms_div r N hN hcard

/-! ### 3. The variance is a nonnegative real -/

/-- The mean of the squared deviations of real data from a real centre m, over a positive count
    N, is the coercion of a nonnegative real. -/
theorem centered_mean_sq_coe (r : ι → ℝ) (m : ℝ) (N : ℝ) (hN : 0 < N) :
    ∃ v : ℝ, 0 ≤ v ∧
      (∑ i, (((r i : ℝ) : EReal) - ((m : ℝ) : EReal)) * (((r i : ℝ) : EReal) - ((m : ℝ) : EReal)))
        * ((N : ℝ) : EReal)⁻¹ = ((v : ℝ) : EReal) := by
  refine ⟨(∑ i, (r i - m) * (r i - m)) * N⁻¹, ?_, ?_⟩
  · exact mul_nonneg (Finset.sum_nonneg fun i _ => mul_self_nonneg _) (inv_nonneg.2 hN.le)
  · simp only [← EReal.coe_sub, ← EReal.coe_mul, ← coe_sum, ← EReal.coe_inv]

/-- The same for extended-real data and centre, all real. -/
theorem variance_nonneg (x : ι → EReal) (hx : ∀ i, IsReal (x i)) (μ : EReal) (hμ : IsReal μ)
    (N : ℝ) (hN : 0 < N) :
    ∃ v : ℝ, 0 ≤ v ∧ (∑ i, (x i - μ) * (x i - μ)) * ((N : ℝ) : EReal)⁻¹ = ((v : ℝ) : EReal) := by
  choose r hr using hx
  obtain rfl : x = fun i => ((r i : ℝ) : EReal) := funext hr
  obtain ⟨m, rfl⟩ := hμ
  exact centered_mean_sq_coe r m N hN

/-- The same in the shape "initial 0 plus the sum, ideal quotient by N". -/
theorem variance_div_nonneg (x : ι → EReal) (hx : ∀ i, IsReal (x i)) (μ : EReal) (hμ : IsReal μ)
    (N : ℝ) (hN : 0 < N) :
    ∃ v : ℝ, 0 ≤ v ∧
      Ideal.div (0 + ∑ i, (x i - μ) * (x i - μ)) ((N : ℝ) : EReal) = ((v : ℝ) : EReal) := by
  rw [zero_add, div_coe_eq_mul_inv hN.ne']
  exact variance_nonneg x hx μ hμ N hN

/-- Mean of squares minus squared mean, for real data, is the coercion of a nonnegative real. -/
theorem raw_variance_nonneg (x : ι → EReal) (hx : ∀ i, IsReal (x i)) (N : ℝ) (hN : 0 < N)
    (hcard : (Fintype.card ι : ℝ) = N) :
    ∃ v : ℝ, 0 ≤ v ∧
      (∑ i, x i * x i) * ((N : ℝ) : EReal)⁻¹
        - (∑ i, x i) * ((N : ℝ) : EReal)⁻¹ * ((∑ i, x i) * ((N : ℝ) : EReal)⁻¹)
        = ((v : ℝ) : EReal) := by
  rw [variance_two_forms_of_isReal x hx N hN.ne' hcard _ _ _ rfl rfl rfl]
  exact variance_nonneg x hx _ ((IsReal.sum x hx).mul_inv_coe N) N hN

/-- The same in the shape "initial 0 plus the sum, ideal quotient by N". -/
theorem raw_variance_div_nonneg (x : ι → EReal) (hx : ∀ i, IsReal (x i)) (N : ℝ) (hN : 0 < N)
    (hcard : (Fintype.card ι : ℝ) = N) :
    ∃ v : ℝ, 0 ≤ v ∧
      Ideal.div (0 + ∑ i, x i * x i) ((N : ℝ) : EReal)
        - Ideal.div (0 + ∑ i, x i) ((N : ℝ) : EReal) * Ideal.div (0 + ∑ i, x i) ((N : ℝ) : EReal)
        = ((v : ℝ) : EReal) := by
  simp only [zero_add, div_coe_eq_mul_inv hN.ne']
  exact raw_variance_nonneg x hx N hN hcard

/-- A nonnegative real plus a positive real ε is the coercion of a positive real. -/
theorem add_eps_pos {y : EReal} (hy : ∃ v : ℝ, 0 ≤ v ∧ y = ((v : ℝ) : EReal)) {ε : ℝ}
    (hε : 0 < ε) : ∃ w : ℝ, 0 < w ∧ y + ((ε : ℝ) : EReal) = ((w : ℝ) : EReal) := by
  obtain ⟨v, hv, rfl⟩ := hy
  exact ⟨v + ε, add_pos_of_nonneg_of_pos hv hε, (EReal.coe_add v ε).symm⟩

/-- The ideal reciprocal square root of a nonnegative real plus a positive real ε is a positive
    real. -/
theorem rsqrt_add_eps_pos {y : EReal} (hy : ∃ v : ℝ, 0 ≤ v ∧ y = ((v : ℝ) : EReal)) {ε : ℝ}
    (hε : 0 < ε) :
    ∃ w : ℝ, 0 < w ∧ Ideal.rsqrt (y + ((ε : ℝ) : EReal)) = ((w : ℝ) : EReal) := by
  obtain ⟨u, hu, e⟩ := add_eps_pos hy hε
  rw [e]; exact rsqrt_coe_pos' hu

/-- Hence it is real. -/
theorem IsReal.rsqrt_add_eps {y : EReal} (hy : ∃ v : ℝ, 0 ≤ v ∧ y = ((v : ℝ) : EReal)) {ε : ℝ}
    (hε : 0 < ε) : IsReal (Ideal.rsqrt (y + ((ε : ℝ) : EReal))) := by
  obtain ⟨w, _, e⟩ := rsqrt_add_eps_pos hy hε
  exact ⟨w, e⟩

end Variance

/-! ### 5. Tile-by-tile accumulation -/

section Tiles
variable {M : Type*} [AddCommMonoid M]

/-- Left-nested accumulation of a sequence s onto an initial value z: after t steps it is
    ((z + s 0) + s 1) + … + s (t-1). -/
def acc (z : M) (s : ℕ → M) : ℕ → M
  | 0 => z
  | t + 1 => acc z s t + s t

/-- Before any step the accumulation is the initial value. -/
@[simp] theorem acc_zero (z : M) (s : ℕ → M) : acc z s 0 = z := rfl
/-- One more step adds the next term on the right. -/
@[simp] theorem acc_succ (z : M) (s : ℕ → M) (t : ℕ) : acc z s (t + 1) = acc z s t + s t := rfl

/-- After A steps the accumulation is the initial value plus the sum of the first A terms. -/
theorem acc_eq_add_sum_range (z : M) (s : ℕ → M) (A : ℕ) :
    acc z s A = z + ∑ t ∈ Finset.range A, s t := by
  induction A with
  | zero => simp
  | succ n ih => rw [acc_succ, ih, Finset.sum_range_succ, add_assoc]

/-- The same with the sum taken over the finite type of the first A naturals. -/
theorem acc_eq_add_sum_fin (z : M) (s : ℕ → M) (A : ℕ) :
    acc z s A = z + ∑ t : Fin A, s t := by
  rw [acc_eq_add_sum_range, Finset.sum_range]

/-- From the initial value 0 the accumulation is 0 plus the sum of the first A terms. -/
theorem acc_zero_eq (s : ℕ → M) (A : ℕ) : acc 0 s A = 0 + ∑ t : Fin A, s t :=
  acc_eq_add_sum_fin 0 s A

/-- Tiles: if the t-th term is 0 plus the sum of the entries of the t-th tile, and the tiles
    (t, j) enumerate an index type ι through a bijection e, then accumulating the A tile sums
    onto z gives z plus the sum of ALL entries. No finiteness of the values is needed. -/
theorem acc_tiles_equiv {ι κ : Type*} [Fintype ι] [Fintype κ] (A : ℕ) (e : Fin A × κ ≃ ι)
    (a : ι → M) (s : ℕ → M) (hs : ∀ t : Fin A, s t = 0 + ∑ j : κ, a (e (t, j))) (z : M) :
    acc z s A = z + ∑ i : ι, a i := by
  rw [acc_eq_add_sum_fin]
  congr 1
  rw [← Equiv.sum_comp e a, Fintype.sum_prod_type]
  exact Finset.sum_congr rfl fun t _ => by rw [hs t, zero_add]

/-- Tiles indexed by a pair (tile, position in tile). -/
theorem acc_tiles_prod (A B : ℕ) (a : Fin A × Fin B → M) (s : ℕ → M)
    (hs : ∀ t : Fin A, s t = 0 + ∑ j : Fin B, a (t, j)) (z : M) :
    acc z s A = z + ∑ p : Fin A × Fin B, a p :=
  acc_tiles_equiv A (Equiv.refl _) a s hs z

/-- Tiles of a flat index: entry number j + B * t is position j of tile t. -/
theorem acc_tiles_flat (A B : ℕ) (a : Fin (A * B) → M) (s : ℕ → M)
    (hs : ∀ t : Fin A, s t = 0 + ∑ j : Fin B, a (finProdFinEquiv (t, j))) (z : M) :
    acc z s A = z + ∑ k : Fin (A * B), a k :=
  acc_tiles_equiv A finProdFinEquiv a s hs z

/-- From the initial value 0: the accumulated tile sums are 0 plus the sum of all entries. -/
theorem acc_zero_tiles_flat (A B : ℕ) (a : Fin (A * B) → M) (s : ℕ → M)
    (hs : ∀ t : Fin A, s t = 0 + ∑ j : Fin B, a (finProdFinEquiv (t, j))) :
    acc 0 s A = 0 + ∑ k : Fin (A * B), a k :=
  acc_tiles_flat A B a s hs 0

end Tiles

/-! ### 6. One-hot weighted sums -/

section OneHot
variable {ι : Type*}

/-- A sum weighted by the indicator (1 where p holds, 0 elsewhere) of a predicate is the sum over
    the indices where p holds: it uses only 1 · x = x and 0 · x = 0, which hold for every
    extended real, the infinities included. -/
theorem finset_sum_onehot_mul (s : Finset ι) (p : ι → Prop) [DecidablePred p] (f : ι → EReal) :
    ∑ i ∈ s, (if p i then (1 : EReal) else 0) * f i = ∑ i ∈ s.filter p, f i := by
  rw [Finset.sum_filter]
  refine Finset.sum_congr rfl fun i _ => ?_
  by_cases h : p i
  · rw [if_pos h, if_pos h, one_mul]
  · rw [if_neg h, if_neg h, zero_mul]

/-- The same over a finite type. -/
theorem sum_onehot_mul [Fintype ι] (p : ι → Prop) [DecidablePred p] (f : ι → EReal) :
    ∑ i, (if p i then (1 : EReal) else 0) * f i = ∑ i ∈ Finset.univ.filter p, f i :=
  finset_sum_onehot_mul Finset.univ p f

/-- With the weight on the right. -/
theorem sum_mul_onehot [Fintype ι] (p : ι → Prop) [DecidablePred p] (f : ι → EReal) :
    ∑ i, f i * (if p i then (1 : EReal) else 0) = ∑ i ∈ Finset.univ.filter p, f i := by
  rw [Finset.sum_filter]
  refine Finset.sum_congr rfl fun i _ => ?_
  by_cases h : p i
  · rw [if_pos h, if_pos h, mul_one]
  · rw [if_neg h, if_neg h, mul_zero]

end OneHot

/-- The one-hot weights themselves sum to the number of indices where the predicate holds, an
    extended real that is a natural number. -/
theorem sum_onehot_one {ι : Type*} [Fintype ι] (p : ι → Prop) [DecidablePred p] :
    ∑ i, (if p i then (1 : EReal) else 0) * 1 = (((Finset.univ.filter p).card : ℕ) : EReal) := by
  rw [sum_onehot_mul, Finset.sum_const, nsmul_one]

/-- The count above, as an extended real, is real and nonnegative; its maximum with 1 is a
    real at least 1. -/
theorem max_natCast_one (n : ℕ) :
    ∃ c : ℝ, 1 ≤ c ∧ max ((n : ℕ) : EReal) 1 = ((c : ℝ) : EReal) := by
  refine ⟨max (n : ℝ) 1, le_max_right _ _, ?_⟩
  rw [← EReal.coe_coe_eq_natCast, ← EReal.coe_one]
  rcases le_total (n : ℝ) 1 with h | h
  · rw [max_eq_right h, max_eq_right (EReal.coe_le_coe_iff.2 h)]
  · rw [max_eq_left h, max_eq_left (EReal.coe_le_coe_iff.2 h)]

/-! ### Further closure facts -/

/-- The ideal quotient of a real by a nonzero real (both given as extended reals) is real. -/
theorem IsReal.div {x y : EReal} (hx : IsReal x) (hy : IsReal y) (hy0 : y ≠ 0) :
    IsReal (Ideal.div x y) := by
  obtain ⟨c, rfl⟩ := hy
  exact hx.div_coe (by rintro rfl; exact hy0 EReal.coe_zero)

/-- A choice between two reals is real. -/
theorem IsReal.ite {x y : EReal} (c : Prop) [Decidable c] (hx : IsReal x) (hy : IsReal y) :
    IsReal (if c then x else y) := by
  by_cases h : c
  · rwa [if_pos h]
  · rwa [if_neg h]

/-- The positive part of a real is real. -/
theorem IsReal.max_zero {x : EReal} (hx : IsReal x) : IsReal (Max.max x 0) := hx.max IsReal.zero

/-- An accumulated contraction, an initial real plus a finite sum of products of reals, is
    real. -/
theorem IsReal.add_sum_mul {κ : Type*} [Fintype κ] {z : EReal} (hz : IsReal z) (a b : κ → EReal)
    (ha : ∀ k, IsReal (a k)) (hb : ∀ k, IsReal (b k)) : IsReal (z + ∑ k, a k * b k) :=
  hz.add_sum _ fun k => (ha k).mul (hb k)

/-- A left-nested accumulation of reals onto a real is real at every step. -/
theorem IsReal.acc {z : EReal} (hz : IsReal z) (s : ℕ → EReal) (A : ℕ)
    (hs : ∀ t, t < A → IsReal (s t)) : IsReal (acc z s A) := by
  induction A with
  | zero => simpa using hz
  | succ n ih =>
    rw [acc_succ]
    exact (ih fun t ht => hs t (Nat.lt_succ_of_lt ht)).add (hs n (Nat.lt_succ_self n))

/-- Tiles whose t-th term is the bare sum of the t-th tile (no initial 0): accumulating the A
    tile sums onto z gives z plus the sum of all entries. -/
theorem acc_tiles_equiv' {M : Type*} [AddCommMonoid M] {ι κ : Type*} [Fintype ι] [Fintype κ]
    (A : ℕ) (e : Fin A × κ ≃ ι) (a : ι → M) (s : ℕ → M)
    (hs : ∀ t : Fin A, s t = ∑ j : κ, a (e (t, j))) (z : M) :
    acc z s A = z + ∑ i : ι, a i :=
  acc_tiles_equiv A e a s (fun t => by rw [hs t, zero_add]) z

/-- A sum of ones over the indices where a predicate holds is their number. -/
theorem sum_filter_one {ι : Type*} [Fintype ι] (p : ι → Prop) [DecidablePred p] :
    ∑ _i ∈ Finset.univ.filter p, (1 : EReal) = (((Finset.univ.filter p).card : ℕ) : EReal) := by
  rw [Finset.sum_const, nsmul_one]

end Cert.LibMoments
-- ==== Proof.SpecLaws.lean ====
/-
  The two arrangements of the weighted cosine agree on real data, and the attended sequence of real data is real.

  Every divisor in `Cert.Spec` is a guarded root `sqrt (max s eps)` with `eps` a positive real, so on real data every
  divisor is a positive real and every intermediate value stays real. On the reals, with `NA = sqrt (max (∑ (a w)²) ε)`
  and `NH = sqrt (max (∑ (h w)²) ε)`,

      ∑ d, (a d · w d / NA) · (h d · w d / NH)  =  (∑ d, (a d · h d) · (w d · w d)) / (NA · NH),

  term by term, and `∑ (a a)(w w) = ∑ (a w)(a w)`: the two denominators are the same numbers.
-/
import proofs.«131025_j69939247448444_1_alg».proof.Proof.Spec
import proofs.«131025_j69939247448444_1_alg».proof.Proof.LibMoments
import Mathlib.Tactic.Positivity
import Mathlib.Tactic.NormNum
import Mathlib.Tactic.Ring
import Mathlib.Tactic.FieldSimp

noncomputable section

namespace Cert.SpecLaws

open scoped BigOperators
open Idealize.ShloMosaic Cert.Spec Cert.LibMoments

/-- The guard is a positive real. -/
theorem eps_pos : ∃ ε : ℝ, 0 < ε ∧ eps = ((ε : ℝ) : EReal) := by
  refine ⟨9223372 * (2 : ℝ) ^ (-63 : ℤ), by positivity, ?_⟩
  unfold eps
  simp [Ideal.ofBits, Ideal.ieee, -EReal.coe_mul] <;> norm_num

/-- The larger of two coerced reals is the coercion of the larger. -/
theorem coe_max (x y : ℝ) : max ((x : ℝ) : EReal) ((y : ℝ) : EReal) = ((max x y : ℝ) : EReal) := by
  rcases le_total x y with h | h
  · rw [max_eq_right h, max_eq_right (EReal.coe_le_coe_iff.2 h)]
  · rw [max_eq_left h, max_eq_left (EReal.coe_le_coe_iff.2 h)]

section Guard
variable {ε : ℝ} (hε : 0 < ε) (he : eps = ((ε : ℝ) : EReal))
include hε he

/-- The root of a real guarded by a positive real is positive. -/
theorem sqrt_max_pos (s : ℝ) : 0 < Real.sqrt (max s ε) :=
  Real.sqrt_pos.2 (lt_of_lt_of_le hε (le_max_right _ _))

/-- The guarded root of a coerced real is the coercion of the real guarded root. -/
theorem nrm_coe (s : ℝ) : nrm ((s : ℝ) : EReal) = ((Real.sqrt (max s ε) : ℝ) : EReal) := by
  unfold nrm
  rw [he, coe_max, Ideal.sqrt_coe, if_neg (not_lt.2 (le_trans hε.le (le_max_right _ _)))]

/-- A coerced real divided by the guarded root of a coerced real is the coerced real quotient. -/
theorem div_nrm_coe (x s : ℝ) :
    Ideal.div ((x : ℝ) : EReal) (nrm ((s : ℝ) : EReal)) = ((x / Real.sqrt (max s ε) : ℝ) : EReal) := by
  rw [nrm_coe hε he, div_coe_coe _ (sqrt_max_pos hε he _).ne']

end Guard

/-! ## Real data stay real -/

/-- The guarded root of a real is a positive real. -/
theorem nrm_pos_of_isReal {s : EReal} (hs : IsReal s) : ∃ w : ℝ, 0 < w ∧ nrm s = ((w : ℝ) : EReal) := by
  obtain ⟨ε, hε, he⟩ := eps_pos
  obtain ⟨r, rfl⟩ := hs
  exact ⟨_, sqrt_max_pos hε he r, nrm_coe hε he r⟩

/-- A real divided by the guarded root of a real is real. -/
theorem div_nrm_isReal {x s : EReal} (hx : IsReal x) (hs : IsReal s) : IsReal (Ideal.div x (nrm s)) := by
  obtain ⟨w, hw, e⟩ := nrm_pos_of_isReal hs
  rw [e]; exact hx.div_coe hw.ne'

variable {T D P : ℕ}

theorem rowNormed_isReal (x : Fin T → Fin D → EReal) (hx : ∀ t d, IsReal (x t d)) (t : Fin T) (d : Fin D) :
    IsReal (rowNormed x t d) :=
  div_nrm_isReal (hx t d) (IsReal.sum _ fun d' => (hx t d').mul (hx t d'))

theorem corr_isReal (y x : Fin T → Fin D → EReal) (hy : ∀ t d, IsReal (y t d)) (hx : ∀ t d, IsReal (x t d))
    (d e : Fin D) : IsReal (corr y x d e) :=
  IsReal.sum _ fun t => (hy t d).mul (hx t e)

theorem colNormed_isReal (al : Fin D → Fin D → EReal) (h : ∀ d e, IsReal (al d e)) (d e : Fin D) :
    IsReal (colNormed al d e) :=
  div_nrm_isReal (h d e) (IsReal.sum _ fun d' => (h d' e).mul (h d' e))

/-- The attended sequence of real sequences is real. -/
theorem hmean_isReal (a b : Fin T → Fin D → EReal) (ha : ∀ t d, IsReal (a t d)) (hb : ∀ t d, IsReal (b t d))
    (t : Fin T) (e : Fin D) : IsReal (hmean a b t e) :=
  IsReal.sum _ fun d => (rowNormed_isReal b hb t d).mul
    (colNormed_isReal _ (corr_isReal _ _ (rowNormed_isReal b hb) (rowNormed_isReal a ha)) d e)

/-! ## The two arrangements agree -/

/-- The law over the reals. -/
theorem real_law (a h w : Fin D → ℝ) {ε : ℝ} (hε : 0 < ε) :
    ∑ d : Fin D, (a d * w d) / Real.sqrt (max (∑ d' : Fin D, (a d' * w d') * (a d' * w d')) ε)
        * ((h d * w d) / Real.sqrt (max (∑ d' : Fin D, (h d' * w d') * (h d' * w d')) ε))
      = (∑ d : Fin D, (a d * h d) * (w d * w d))
          / (Real.sqrt (max (∑ d : Fin D, (a d * a d) * (w d * w d)) ε)
              * Real.sqrt (max (∑ d : Fin D, (h d * h d) * (w d * w d)) ε)) := by
  have e1 : ∑ d : Fin D, (a d * a d) * (w d * w d) = ∑ d' : Fin D, (a d' * w d') * (a d' * w d') :=
    Finset.sum_congr rfl fun d _ => by ring
  have e2 : ∑ d : Fin D, (h d * h d) * (w d * w d) = ∑ d' : Fin D, (h d' * w d') * (h d' * w d') :=
    Finset.sum_congr rfl fun d _ => by ring
  rw [e1, e2]
  have hNA : 0 < Real.sqrt (max (∑ d' : Fin D, (a d' * w d') * (a d' * w d')) ε) :=
    Real.sqrt_pos.2 (lt_of_lt_of_le hε (le_max_right _ _))
  have hNH : 0 < Real.sqrt (max (∑ d' : Fin D, (h d' * w d') * (h d' * w d')) ε) :=
    Real.sqrt_pos.2 (lt_of_lt_of_le hε (le_max_right _ _))
  generalize Real.sqrt (max (∑ d' : Fin D, (a d' * w d') * (a d' * w d')) ε) = NA at hNA ⊢
  generalize Real.sqrt (max (∑ d' : Fin D, (h d' * w d') * (h d' * w d')) ε) = NH at hNH ⊢
  rw [Finset.sum_div]
  refine Finset.sum_congr rfl fun d _ => ?_
  field_simp

/-- On real data the sum of products of the two scaled, normalised rows is the quotient of the three weighted sums. -/
theorem perspR_eq_perspK (a h : Fin T → Fin D → EReal) (W : Fin P → Fin D → EReal)
    (ha : ∀ t d, IsReal (a t d)) (hh : ∀ t d, IsReal (h t d)) (hW : ∀ p d, IsReal (W p d))
    (t : Fin T) (p : Fin P) : perspR a h W t p = perspK a h W t p := by
  obtain ⟨ε, hε, he⟩ := eps_pos
  choose ar har using fun d => ha t d
  choose hr hhr using fun d => hh t d
  choose wr hwr using fun d => hW p d
  have hsq : ∀ s : ℝ, Ideal.sqrt (max ((s : ℝ) : EReal) eps) = ((Real.sqrt (max s ε) : ℝ) : EReal) :=
    fun s => nrm_coe hε he s
  unfold perspR perspK
  simp only [har, hhr, hwr, ← EReal.coe_mul]
  simp only [div_nrm_coe hε he, ← EReal.coe_mul, ← coe_sum, hsq]
  rw [div_coe_coe _ (mul_pos (sqrt_max_pos hε he _) (sqrt_max_pos hε he _)).ne']
  exact congrArg _ (real_law ar hr wr hε)

end Cert.SpecLaws

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.KernelHmean.lean ====
/-
  The attended sequence a kernel block computes, read at an index (extended reals, the ideal instance).

  From two blocks of 256 rows of 512 features the body divides every row of each by the guarded root of the sum of its
  squares, correlates the two normalised blocks over the rows into a 512 × 512 matrix, divides every column of that matrix by
  the guarded root of the sum of its squares, and multiplies the second normalised block by the result. Read at row t
  and feature e this is the attended sequence of the shared definitions.
-/
import proofs.«131025_j69939247448444_1_alg».proof.Proof.Gen.KernelIdeal.Skeleton
import proofs.«131025_j69939247448444_1_alg».proof.Proof.Spec
import proofs.«131025_j69939247448444_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelHmean

open scoped BigOperators
open Idealize.ShloMosaic Idealize.ShloMosaic.ValueIdx
open Cert.KernelIdeal

variable [Cert.KernelIdeal.Facts]

/-! ## Rows divided by their guarded norm -/

/-- Over a rank-2 shape reduced along axis 0, the source index above column c with coordinate k on the dropped axis is
    (k, c). -/
theorem lift_ix0 {a b : ℕ} (h : (⟨2, ![a, b]⟩ : Shape).Reduces [(0 : Fin 2)] ⟨1, ![b]⟩) (c : Fin b) (k : Fin a) :
    h.lift (ix1 c) k = ix2 k c :=
  funext fun ax => Fin.ext (match ax with | ⟨0, _⟩ => rfl | ⟨1, _⟩ => rfl)

/-- A block whose every entry is divided by the root of the larger of its row's sum of squares and the guard — the sum
    kept as a column and laid back over the columns — is, at (t, d), the row-normalised block of the shared definitions. -/
theorem rowNormed_apply (x : FVec Ideal S256x512 .f32)
    (hr : S256x512.Reduces [(1 : Fin 2)] S256) (hφ : FKind.Formats .f32)
    (hacc : (0x00000000#32 : BitVec (FTy.bits .f32)) = FKind.add.neutral .f32 hφ)
    (hc : S256.ShapeCasts S256x1) (hb : S256x1.Broadcasts S256x512) (t : Fin 256) (d : Fin 512) :
    divf x (broadcastTo S256x512 (sqrt (maximumf
        (shapeCast S256x1 (multiReduction (F := Ideal) .add [(1 : Fin 2)] S256 (mulf x x) 0x00000000#32 hr hφ hacc) hc)
        (broadcast S256x1 (Scalar.ofBits (F := Ideal) .f32 0x2B8CBCCC#32)))) hb) (ix2 t d)
      = Cert.Spec.rowNormed (fun t d => x (ix2 t d)) t d := by
  refine congrArg (Ideal.div (x (ix2 t d))) ?_
  refine (Cert.LibKeepdims.broadcastTo_a1_ab_apply _ hb t d).trans ?_
  refine congrArg (fun s => Ideal.sqrt (max s Cert.Spec.eps)) ?_
  refine (Cert.LibKeepdims.shapeCast_a_a1_apply _ hc t 0).trans ?_
  refine (Ideal.multiReduction_add_single (mulf x x) _ hr hφ hacc (ix1 t)).trans ?_
  exact Finset.sum_congr rfl fun k _ => congrArg (fun i => x i * x i) (Cert.LibKeepdims.lift_ix1 hr t k)

/-! ## Columns divided by their guarded norm -/

/-- A square matrix whose every entry is divided by the root of the larger of its column's sum of squares and the guard —
    the sum kept as a row and laid back over the rows — is, at (d, e), the column-normalised matrix of the shared
    definitions. -/
theorem colNormed_apply (al : FVec Ideal S512x512 .f32)
    (hr : S512x512.Reduces [(0 : Fin 2)] S512) (hφ : FKind.Formats .f32)
    (hacc : (0x00000000#32 : BitVec (FTy.bits .f32)) = FKind.add.neutral .f32 hφ)
    (hc : S512.ShapeCasts S1x512) (hb : S1x512.Broadcasts S512x512) (d e : Fin 512) :
    divf al (broadcastTo S512x512 (sqrt (maximumf
        (shapeCast S1x512 (multiReduction (F := Ideal) .add [(0 : Fin 2)] S512 (mulf al al) 0x00000000#32 hr hφ hacc) hc)
        (broadcast S1x512 (Scalar.ofBits (F := Ideal) .f32 0x2B8CBCCC#32)))) hb) (ix2 d e)
      = Cert.Spec.colNormed (fun d e => al (ix2 d e)) d e := by
  refine congrArg (Ideal.div (al (ix2 d e))) ?_
  refine (broadcastTo_1b_ab_apply _ hb d e).trans ?_
  refine congrArg (fun s => Ideal.sqrt (max s Cert.Spec.eps)) ?_
  refine (shapeCast_a_1a_apply _ hc 0 e).trans ?_
  refine (Ideal.multiReduction_add_single (mulf al al) _ hr hφ hacc (ix1 e)).trans ?_
  exact Finset.sum_congr rfl fun k _ => congrArg (fun i => al i * al i) (lift_ix0 hr e k)

/-! ## The correlation: both operands contracted along their rows -/

theorem lhs_corr_0 (i : S512x512.Idx) (q : dot_S256x512_S256x512_S512x512_0_0_1_1_n_n.contr.Idx) :
    (dot_S256x512_S256x512_S512x512_0_0_1_1_n_n.lhsIdx i q 0).val = (q ⟨0, by decide⟩).val :=
  dot_S256x512_S256x512_S512x512_0_0_1_1_n_n.lhsIdx_val_of_single rfl i q
theorem lhs_corr_1 (i : S512x512.Idx) (q : dot_S256x512_S256x512_S512x512_0_0_1_1_n_n.contr.Idx) :
    (dot_S256x512_S256x512_S512x512_0_0_1_1_n_n.lhsIdx i q 1).val = (i 0).val := by
  unfold DotDims.lhsIdx
  rw [dif_neg (show ¬(1 : Fin S256x512.rank) ∈ dot_S256x512_S256x512_S512x512_0_0_1_1_n_n.lhsBatch by decide), dif_pos (show (1 : Fin S256x512.rank) ∈ dot_S256x512_S256x512_S512x512_0_0_1_1_n_n.lhsNonContracting by decide)]
  rfl
theorem rhs_corr_0 (i : S512x512.Idx) (q : dot_S256x512_S256x512_S512x512_0_0_1_1_n_n.contr.Idx) :
    (dot_S256x512_S256x512_S512x512_0_0_1_1_n_n.rhsIdx i q 0).val = (q ⟨0, by decide⟩).val :=
  dot_S256x512_S256x512_S512x512_0_0_1_1_n_n.rhsIdx_val_of_single rfl i q
theorem rhs_corr_1 (i : S512x512.Idx) (q : dot_S256x512_S256x512_S512x512_0_0_1_1_n_n.contr.Idx) :
    (dot_S256x512_S256x512_S512x512_0_0_1_1_n_n.rhsIdx i q 1).val = (i 1).val := by
  unfold DotDims.rhsIdx
  rw [dif_neg (show ¬(1 : Fin S256x512.rank) ∈ dot_S256x512_S256x512_S512x512_0_0_1_1_n_n.rhsBatch by decide), dif_pos (show (1 : Fin S256x512.rank) ∈ dot_S256x512_S256x512_S512x512_0_0_1_1_n_n.rhsNonContracting by decide)]
  rfl

/-- The product contracting the rows of both operands, accumulated into a zero splat, read at (d, e): the sum over the
    rows t of the left entry (t, d) times the right entry (t, e). -/
theorem corr_apply {φ₁ φ₂ : FTy} (L : FVec Ideal S256x512 φ₁) (R : FVec Ideal S256x512 φ₂) (d e : Fin 512) :
    matmul dot_S256x512_S256x512_S512x512_0_0_1_1_n_n none L R (constant (F := Ideal) S512x512 .f32 0x00000000#32) (ix2 d e)
      = ∑ t : Fin 256, L (ix2 t d) * R (ix2 t e) := by
  rw [matmul_zero_eq_dotGeneral]
  simp only [Host.dotGeneral]
  rw [Ideal.dotGeneral_apply, ← Equiv.sum_comp (ValueIdx.contrEquiv1 dot_S256x512_S256x512_S512x512_0_0_1_1_n_n 256 rfl rfl).symm]
  refine Finset.sum_congr rfl fun k _ => ?_
  have hk := ValueIdx.contrEquiv1_symm_val dot_S256x512_S256x512_S512x512_0_0_1_1_n_n 256 rfl rfl k
  have el : dot_S256x512_S256x512_S512x512_0_0_1_1_n_n.lhsIdx (ix2 d e) ((ValueIdx.contrEquiv1 dot_S256x512_S256x512_S512x512_0_0_1_1_n_n 256 rfl rfl).symm k) = ix2 k d := funext fun a => Fin.ext (by
    match a with
    | ⟨0, _⟩ => exact (lhs_corr_0 _ _).trans hk
    | ⟨1, _⟩ => exact lhs_corr_1 _ _)
  have er : dot_S256x512_S256x512_S512x512_0_0_1_1_n_n.rhsIdx (ix2 d e) ((ValueIdx.contrEquiv1 dot_S256x512_S256x512_S512x512_0_0_1_1_n_n 256 rfl rfl).symm k) = ix2 k e := funext fun a => Fin.ext (by
    match a with
    | ⟨0, _⟩ => exact (rhs_corr_0 _ _).trans hk
    | ⟨1, _⟩ => exact rhs_corr_1 _ _)
  rw [el, er]

/-! ## The attended product: features of the left against rows of the right -/

theorem lhs_att_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_att_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs_att_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs_att_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The plain product accumulated into a zero splat, read at (t, e): the sum over the features d of the left entry
    (t, d) times the right entry (d, e). -/
theorem att_apply {φ₁ φ₂ : FTy} (L : FVec Ideal S256x512 φ₁) (R : FVec Ideal S512x512 φ₂) (t : Fin 256) (e : Fin 512) :
    matmul dot_S256x512_S512x512_S256x512_1_0_0_1_n_n none L R (constant (F := Ideal) S256x512 .f32 0x00000000#32) (ix2 t e)
      = ∑ d : Fin 512, L (ix2 t d) * R (ix2 d e) := by
  rw [matmul_zero_eq_dotGeneral]
  simp only [Host.dotGeneral]
  rw [Ideal.dotGeneral_apply, ← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 t e) ((ValueIdx.contrEquiv1 dot_S256x512_S512x512_S256x512_1_0_0_1_n_n 512 rfl rfl).symm k) = ix2 t k := funext fun a => Fin.ext (by
    match a with
    | ⟨0, _⟩ => exact lhs_att_0 _ _
    | ⟨1, _⟩ => exact (lhs_att_1 _ _).trans hk)
  have er : dot_S256x512_S512x512_S256x512_1_0_0_1_n_n.rhsIdx (ix2 t e) ((ValueIdx.contrEquiv1 dot_S256x512_S512x512_S256x512_1_0_0_1_n_n 512 rfl rfl).symm k) = ix2 k e := funext fun a => Fin.ext (by
    match a with
    | ⟨0, _⟩ => exact (rhs_att_0 _ _).trans hk
    | ⟨1, _⟩ => exact rhs_att_1 _ _)
  rw [el, er]

/-! ## The block's attended sequence -/

/-- A loaded block with its leading unit axis dropped, read at (t, d), is the block at (0, t, d). -/
theorem pay2_apply (v : Vec Ideal S1x256x512 .f32) (t : Fin 256) (d : Fin 512) :
    Cert.KernelIdeal.Gen.k0_pay2 (F := Ideal) v (ix2 t d) = v (ix3 (0 : Fin 1) t d) :=
  shapeCast_1ab_ab_apply v _ t d

/-- A loaded block, its leading unit axis dropped and its rows divided by their guarded norms, read at (t, d): the
    row-normalised block of the shared definitions over the block's entries (0, t, d). -/
theorem rowNormed_block_apply (v : Vec Ideal S1x256x512 .f32)
    (hs : S1x256x512.ShapeCasts S256x512)
    (hr : S256x512.Reduces [(1 : Fin 2)] S256) (hφ : FKind.Formats .f32)
    (hacc : (0x00000000#32 : BitVec (FTy.bits .f32)) = FKind.add.neutral .f32 hφ)
    (hc : S256.ShapeCasts S256x1) (hb : S256x1.Broadcasts S256x512) (t : Fin 256) (d : Fin 512) :
    divf (shapeCast S256x512 v hs) (broadcastTo S256x512 (sqrt (maximumf
        (shapeCast S256x1 (multiReduction (F := Ideal) .add [(1 : Fin 2)] S256
          (mulf (shapeCast S256x512 v hs) (shapeCast S256x512 v hs)) 0x00000000#32 hr hφ hacc) hc)
        (broadcast S256x1 (Scalar.ofBits (F := Ideal) .f32 0x2B8CBCCC#32)))) hb) (ix2 t d)
      = Cert.Spec.rowNormed (fun t d => v (ix3 (0 : Fin 1) t d)) t d := by
  refine (rowNormed_apply (shapeCast S256x512 v hs) hr hφ hacc hc hb t d).trans ?_
  exact congrArg (fun X => Cert.Spec.rowNormed X t d)
    (funext fun t' => funext fun d' => shapeCast_1ab_ab_apply v hs t' d')

/-- The value the body multiplies the first block by: at row t and feature e, the attended sequence of the two blocks. -/
theorem pay3_apply (v0 v2 : Vec Ideal Cert.KernelIdeal.S1x256x512 .f32) (t : Fin 256) (e : Fin 512) :
    Cert.KernelIdeal.Gen.k0_pay3 (F := Ideal) v0 v2 (ix2 t e)
      = Cert.Spec.hmean (fun t d => v0 (ix3 (0 : Fin 1) t d)) (fun t d => v2 (ix3 (0 : Fin 1) t d)) t e := by
  unfold Cert.KernelIdeal.Gen.k0_pay3 Cert.KernelIdeal.Gen.k0_pay2
  refine (att_apply _ _ t e).trans (Finset.sum_congr rfl fun d _ => ?_)
  refine congrArg₂ (· * ·) ?_ ?_
  · exact rowNormed_block_apply v2 _ _ _ _ _ _ t d
  · refine (colNormed_apply _ _ _ _ _ _ d e).trans ?_
    refine congrArg (fun X => Cert.Spec.colNormed X d e) (funext fun d' => funext fun e' => ?_)
    refine (corr_apply _ _ d' e').trans (Finset.sum_congr rfl fun t' _ => ?_)
    refine congrArg₂ (· * ·) ?_ ?_
    · exact rowNormed_block_apply v2 _ _ _ _ _ _ t' d'
    · exact rowNormed_block_apply v0 _ _ _ _ _ _ t' e'

end Cert.KernelHmean

end
-- ==== Proof.KernelPersp.lean ====
/-
  The kernel's one store, read at an index.

  The body multiplies the block `a` (the first argument's batch entry, cast to a matrix) and the attended sequence `h`
  entrywise in three ways — `a * h`, `a * a`, `h * h` —, squares the weights `W` entrywise, and contracts each of the three
  products with the squared weights over the feature axis (axis 1 of both operands), each contraction accumulated into a
  zero splat. At `(t, p)` the three contractions are the sums `∑ d, (a t d * h t d) * (W p d * W p d)`,
  `∑ d, (a t d * a t d) * (W p d * W p d)` and `∑ d, (h t d * h t d) * (W p d * W p d)`; the stored value is the first
  divided by the product of the guarded roots `sqrt (max · eps)` of the other two: the weighted cosine `Spec.perspK`.
  The attended sequence is taken as given: `hH` says what the kernel's value for it is at every `(t, e)`.
-/
import proofs.«131025_j69939247448444_1_alg».proof.Proof.Gen.KernelIdeal.Frame
import proofs.«131025_j69939247448444_1_alg».proof.Proof.Spec
import proofs.«131025_j69939247448444_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelPersp

open Cert.KernelIdeal Cert.KernelIdeal.Gen Idealize.ShloMosaic Idealize.ShloMosaic.ValueIdx
open scoped BigOperators

/-! ## The contraction over the feature axis of both operands, at an index -/

/-- Axis 0 of the left operand is the result's row. -/
theorem lhs_axis0 (i : S256x20.Idx) (q : dot_S256x512_S20x512_S256x20_1_1_0_0_n_n.contr.Idx) :
    (dot_S256x512_S20x512_S256x20_1_1_0_0_n_n.lhsIdx i q 0).val = (i 0).val := by
  unfold DotDims.lhsIdx
  rw [dif_neg (show ¬(0 : Fin S256x512.rank) ∈ dot_S256x512_S20x512_S256x20_1_1_0_0_n_n.lhsBatch by decide), dif_pos (show (0 : Fin S256x512.rank) ∈ dot_S256x512_S20x512_S256x20_1_1_0_0_n_n.lhsNonContracting by decide)]
  rfl

/-- Axis 1 of the left operand is the contracted one. -/
theorem lhs_axis1 (i : S256x20.Idx) (q : dot_S256x512_S20x512_S256x20_1_1_0_0_n_n.contr.Idx) :
    (dot_S256x512_S20x512_S256x20_1_1_0_0_n_n.lhsIdx i q 1).val = (q ⟨0, by decide⟩).val :=
  dot_S256x512_S20x512_S256x20_1_1_0_0_n_n.lhsIdx_val_of_single rfl i q

/-- Axis 0 of the right operand is the result's column. -/
theorem rhs_axis0 (i : S256x20.Idx) (q : dot_S256x512_S20x512_S256x20_1_1_0_0_n_n.contr.Idx) :
    (dot_S256x512_S20x512_S256x20_1_1_0_0_n_n.rhsIdx i q 0).val = (i 1).val := by
  unfold DotDims.rhsIdx
  rw [dif_neg (show ¬(0 : Fin S20x512.rank) ∈ dot_S256x512_S20x512_S256x20_1_1_0_0_n_n.rhsBatch by decide), dif_pos (show (0 : Fin S20x512.rank) ∈ dot_S256x512_S20x512_S256x20_1_1_0_0_n_n.rhsNonContracting by decide)]
  rfl

/-- Axis 1 of the right operand is the contracted one. -/
theorem rhs_axis1 (i : S256x20.Idx) (q : dot_S256x512_S20x512_S256x20_1_1_0_0_n_n.contr.Idx) :
    (dot_S256x512_S20x512_S256x20_1_1_0_0_n_n.rhsIdx i q 1).val = (q ⟨0, by decide⟩).val :=
  dot_S256x512_S20x512_S256x20_1_1_0_0_n_n.rhsIdx_val_of_single rfl i q

/-- The product of a `256 × 512` matrix with the transpose of a `20 × 512` one, accumulated into a zero splat, read at
    `(t, p)`: the sum over the shared feature axis. -/
theorem matmul_rows_apply (L : FVec Ideal S256x512 .bf16) (R : FVec Ideal S20x512 .bf16) (t : Fin 256) (p : Fin 20) :
    matmul dot_S256x512_S20x512_S256x20_1_1_0_0_n_n none L R (constant (F := Ideal) S256x20 .f32 0x00000000#32) (ix2 t p)
      = ∑ d : Fin 512, L (ix2 t d) * R (ix2 p d) := by
  simp only [matmul]
  rw [Ideal.matmul_constant_zero_apply, ← Equiv.sum_comp (contrEquiv1 dot_S256x512_S20x512_S256x20_1_1_0_0_n_n 512 rfl rfl).symm]
  refine Finset.sum_congr rfl fun k _ => ?_
  have hk := contrEquiv1_symm_val dot_S256x512_S20x512_S256x20_1_1_0_0_n_n 512 rfl rfl k
  have el : dot_S256x512_S20x512_S256x20_1_1_0_0_n_n.lhsIdx (ix2 t p) ((contrEquiv1 dot_S256x512_S20x512_S256x20_1_1_0_0_n_n 512 rfl rfl).symm k) = ix2 t k := funext fun a => Fin.ext (by
    match a with
    | ⟨0, _⟩ => exact lhs_axis0 _ _
    | ⟨1, _⟩ => exact (lhs_axis1 _ _).trans hk)
  have er : dot_S256x512_S20x512_S256x20_1_1_0_0_n_n.rhsIdx (ix2 t p) ((contrEquiv1 dot_S256x512_S20x512_S256x20_1_1_0_0_n_n 512 rfl rfl).symm k) = ix2 p k := funext fun a => Fin.ext (by
    match a with
    | ⟨0, _⟩ => exact rhs_axis0 _ _
    | ⟨1, _⟩ => exact (rhs_axis1 _ _).trans hk)
  rw [el, er]

/-! ## The operands of the three contractions, at an index -/

/-- The first argument's block cast to a matrix reads, at `(t, d)`, the block at `(0, t, d)`. -/
theorem pay2_apply (x0 : Vec Ideal S1x256x512 .f32) (t : Fin 256) (d : Fin 512) :
    k0_pay2 (F := Ideal) x0 (ix2 t d) = x0 (ix3 (0 : Fin 1) t d) := by
  unfold k0_pay2
  exact shapeCast_1ab_ab_apply x0 _ t d

/-- The squared weights at `(p, d)`. -/
theorem pay4_apply (x2 : Vec Ideal S20x512 .f32) (p : Fin 20) (d : Fin 512) :
    k0_pay4 (F := Ideal) x2 (ix2 p d) = x2 (ix2 p d) * x2 (ix2 p d) := rfl

/-- The mixed product `a * h` at `(t, d)`. -/
theorem pay5_apply (x0 x1 : Vec Ideal S1x256x512 .f32) (Hm : Fin 256 → Fin 512 → EReal)
    (hH : ∀ (t : Fin 256) (e : Fin 512), k0_pay3 (F := Ideal) x0 x1 (ix2 t e) = Hm t e) (t : Fin 256) (d : Fin 512) :
    k0_pay5 (F := Ideal) x0 x1 (ix2 t d) = x0 (ix3 (0 : Fin 1) t d) * Hm t d := by
  show k0_pay2 (F := Ideal) x0 (ix2 t d) * k0_pay3 (F := Ideal) x0 x1 (ix2 t d) = _
  rw [pay2_apply, hH]

/-- The square `a * a` at `(t, d)`. -/
theorem pay6_apply (x0 : Vec Ideal S1x256x512 .f32) (t : Fin 256) (d : Fin 512) :
    k0_pay6 (F := Ideal) x0 (ix2 t d) = x0 (ix3 (0 : Fin 1) t d) * x0 (ix3 (0 : Fin 1) t d) := by
  show k0_pay2 (F := Ideal) x0 (ix2 t d) * k0_pay2 (F := Ideal) x0 (ix2 t d) = _
  rw [pay2_apply]

/-- The square `h * h` at `(t, d)`. -/
theorem pay7_apply (x0 x1 : Vec Ideal S1x256x512 .f32) (Hm : Fin 256 → Fin 512 → EReal)
    (hH : ∀ (t : Fin 256) (e : Fin 512), k0_pay3 (F := Ideal) x0 x1 (ix2 t e) = Hm t e) (t : Fin 256) (d : Fin 512) :
    k0_pay7 (F := Ideal) x0 x1 (ix2 t d) = Hm t d * Hm t d := by
  show k0_pay3 (F := Ideal) x0 x1 (ix2 t d) * k0_pay3 (F := Ideal) x0 x1 (ix2 t d) = _
  rw [hH]

/-! ## The stored value at an index -/

/-- The stored payload over ANY four operands, at `(0, t, p)`: the first contraction divided by the product of the guarded
    roots of the other two. -/
theorem pay1_apply (Wq : FVec Ideal S20x512 .bf16) (N A Hq : FVec Ideal S256x512 .bf16) (t : Fin 256) (p : Fin 20) :
    k0_pay1 (F := Ideal) Wq N A Hq (constant (F := Ideal) S256x20 .f32 0x00000000#32) (ix3 (0 : Fin 1) t p)
      = Ideal.div (∑ d : Fin 512, N (ix2 t d) * Wq (ix2 p d))
          (Ideal.sqrt (max (∑ d : Fin 512, A (ix2 t d) * Wq (ix2 p d)) Cert.Spec.eps)
            * Ideal.sqrt (max (∑ d : Fin 512, Hq (ix2 t d) * Wq (ix2 p d)) Cert.Spec.eps)) := by
  unfold k0_pay1
  refine (shapeCast_ab_1ab_apply _ _ (0 : Fin 1) t p).trans ?_
  show Ideal.div (matmul dot_S256x512_S20x512_S256x20_1_1_0_0_n_n none N Wq (constant (F := Ideal) S256x20 .f32 0x00000000#32) (ix2 t p))
      (Ideal.sqrt (max (matmul dot_S256x512_S20x512_S256x20_1_1_0_0_n_n none A Wq (constant (F := Ideal) S256x20 .f32 0x00000000#32) (ix2 t p)) (Ideal.ofBits .f32 0x2B8CBCCC#32))
        * Ideal.sqrt (max (matmul dot_S256x512_S20x512_S256x20_1_1_0_0_n_n none Hq Wq (constant (F := Ideal) S256x20 .f32 0x00000000#32) (ix2 t p)) (Ideal.ofBits .f32 0x2B8CBCCC#32))) = _
  rw [matmul_rows_apply, matmul_rows_apply, matmul_rows_apply]
  rfl

/-- The zero offsets of a rank-3 whole-buffer access, however spelt. -/
theorem zeros3 : (![0, 0, 0] : Fin 3 → Nat) = fun _ => 0 :=
  funext fun a => match a with | ⟨0, _⟩ => rfl | ⟨1, _⟩ => rfl | ⟨2, _⟩ => rfl

/-- The zero offsets of a rank-2 whole-buffer access. -/
theorem zeros2 : (![0, 0] : Fin 2 → Nat) = fun _ => 0 :=
  funext fun a => match a with | ⟨0, _⟩ => rfl | ⟨1, _⟩ => rfl

/-- WHAT THE BODY LEAVES in the output buffer, at `(0, t, p)`: the weighted cosine of row `t` of the first block and row `t`
    of the attended sequence `Hm` under weight row `p`. -/
theorem out_apply_of (x0 x1 : Vec Ideal Cert.KernelIdeal.S1x256x512 .f32) (x2 : Vec Ideal Cert.KernelIdeal.S20x512 .f32)
    (Hm : Fin 256 → Fin 512 → EReal)
    (hH : ∀ (t : Fin 256) (e : Fin 512), Cert.KernelIdeal.Gen.k0_pay3 (F := Ideal) x0 x1 (ix2 t e) = Hm t e)
    (t : Fin 256) (p : Fin 20) :
    Cert.KernelIdeal.Gen.out0_3 (F := Ideal) x0 x1 x2 (ix3 (0 : Fin 1) t p)
      = Cert.Spec.perspK (fun t d => x0 (ix3 (0 : Fin 1) t d)) Hm (fun p d => x2 (ix2 p d)) t p := by
  unfold out0_3
  rw [View.canon_unit_zero zeros3]
  simp only [View.ld_unit_zero (S := S1x256x512) zeros3, View.ld_unit_zero (S := S20x512) zeros2]
  rw [pay1_apply]
  simp only [pay4_apply, pay5_apply x0 x1 Hm hH, pay6_apply, pay7_apply x0 x1 Hm hH]
  rfl

end Cert.KernelPersp

end
-- ==== Proof.KernelValue.lean ====
/-
  From blocks to the array. The grid has one point per batch entry `n`; at point `n` the three input windows hold the
  `n`-th `[256, 512]` slab of the first argument, the `n`-th slab of the second and the whole weight matrix, and the
  output window's block is the `n`-th `[256, 20]` slab of the result. So if the body's store, read at `(0, t, p)`, is the
  weighted cosine of row `t` of its first block and the attended row `t` under weight row `p` (`hout`), the result array
  after the run is that function of the three argument arrays at every `(n, t, p)`: the 32 slabs tile the result.
-/
import proofs.«131025_j69939247448444_1_alg».proof.Proof.Gen.KernelIdeal.Value
import proofs.«131025_j69939247448444_1_alg».proof.Proof.Spec
import Idealize.ShloMosaic.Lib.ValueIdx
import Idealize.ShloMosaic.Lib.Pipeline.Value

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

/-- The result as ONE function of the three argument arrays: at `(n, t, p)` the weighted cosine, under weight row `p`, of
    row `t` of slab `n` of the first argument and row `t` of the sequence attended from slabs `n` of both. -/
def G (a0 a1 : S32x256x512.Idx → EReal) (a2 : S20x512.Idx → EReal) : S32x256x20.Idx → EReal := fun i =>
  perspK (fun t d => a0 (ix3 (i 0 : Fin 32) t d))
    (hmean (fun t d => a0 (ix3 (i 0 : Fin 32) t d)) (fun t d => a1 (ix3 (i 0 : Fin 32) t d)))
    (fun p d => a2 (ix2 p d)) (i 1 : Fin 256) (i 2 : Fin 20)

variable (m : (ℓ : Loc nD τ sig) → Buf (Elt Ideal) ℓ) (ρ : Dev nD → PrngReg)

/-- The printed index maps, decided over the 32 grid points: the two slab windows and the output window sit at block
    `(n, 0, 0)` at point `n`, the weight window at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Slab `n` of the first argument, read at `(0, t', d)` of the block. -/
theorem iblk0_apply (c : Dev nD) (t : Fin cfg0.N) (t' : Fin 256) (d : Fin 512) :
    iblk m c 0 t (ix3 (0 : Fin 1) t' d) = V m c main_arg0 (ix3 (⟨t.val, t.isLt⟩ : Fin 32) t' d) := by
  obtain ⟨e0, e1, e2, -⟩ := idx_facts t
  show V m c main_arg0 (((cfg0.win 0).blk t).view.emb (ix3 (0 : Fin 1) t' d)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 256 + 1 * t'.val = t'.val; omega
  | ⟨2, _⟩ => show win0_0.index t (2 : Fin 3) * 512 + 1 * d.val = d.val; omega

/-- Slab `n` of the second argument, read at `(0, t', d)` of the block. -/
theorem iblk1_apply (c : Dev nD) (t : Fin cfg0.N) (t' : Fin 256) (d : Fin 512) :
    iblk m c 1 t (ix3 (0 : Fin 1) t' d) = V m c main_arg1 (ix3 (⟨t.val, t.isLt⟩ : Fin 32) t' d) := by
  obtain ⟨-, -, -, e0, e1, e2, -⟩ := idx_facts t
  show V m c main_arg1 (((cfg0.win 1).blk t).view.emb (ix3 (0 : Fin 1) t' d)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 256 + 1 * t'.val = t'.val; omega
  | ⟨2, _⟩ => show win0_1.index t (2 : Fin 3) * 512 + 1 * d.val = d.val; omega

/-- The weight window's block is the whole weight matrix. -/
theorem iblk2_apply (c : Dev nD) (t : Fin cfg0.N) (p : Fin 20) (d : Fin 512) :
    iblk m c 2 t (ix2 p d) = V m c main_arg2 (ix2 p d) := by
  obtain ⟨-, -, -, -, -, -, e0, e1, -⟩ := idx_facts t
  show V m c main_arg2 (((cfg0.win 2).blk t).view.emb (ix2 p d)) = _
  refine congrArg (V m c main_arg2) (funext fun a => Fin.ext ?_)
  match a with
  | ⟨0, _⟩ => show win0_2.index t (0 : Fin 2) * 20 + 1 * p.val = p.val; omega
  | ⟨1, _⟩ => show win0_2.index t (1 : Fin 2) * 512 + 1 * d.val = d.val; omega

section Body

-- What the body's one store holds at `(0, t, p)`, as a function of the three blocks.
variable (hout : ∀ (x0 x1 : Vec Ideal S1x256x512 .f32) (x2 : Vec Ideal S20x512 .f32) (t : Fin 256) (p : Fin 20),
    out0_3 (F := Ideal) x0 x1 x2 (ix3 (0 : Fin 1) t p)
      = perspK (fun t d => x0 (ix3 (0 : Fin 1) t d))
          (hmean (fun t d => x0 (ix3 (0 : Fin 1) t d)) (fun t d => x1 (ix3 (0 : Fin 1) t d)))
          (fun p d => x2 (ix2 p d)) t p)
include hout

/-- WHAT POINT `n` WRITES BACK is block `n` of `G` of the argument arrays as the region finds them. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Value.flushed3]
  obtain ⟨-, -, -, -, -, -, -, -, e0, e1, e2⟩ := idx_facts t
  funext j
  obtain ⟨u, t', p, rfl⟩ : ∃ (u : Fin 1) (t' : Fin 256) (p : Fin 20), j = ix3 u t' p := ⟨j 0, j 1, j 2, eq_ix3 j⟩
  obtain rfl : u = 0 := Subsingleton.elim _ _
  show out0_3 (F := Ideal) (iblk m c 0 t) (iblk m c 1 t) (iblk m c 2 t) (ix3 (0 : Fin 1) t' p)
    = G (V m c main_arg0) (V m c main_arg1) (V m c main_arg2) (((cfg0.win 3).blk t).view.emb (ix3 (0 : Fin 1) t' p))
  have hemb : ((cfg0.win 3).blk t).view.emb (ix3 (0 : Fin 1) t' p) = ix3 (⟨t.val, t.isLt⟩ : Fin 32) t' p := by
    funext a; apply Fin.ext
    match a with
    | ⟨0, _⟩ => show win0_3.index t (0 : Fin 3) * 1 + 1 * 0 = t.val; omega
    | ⟨1, _⟩ => show win0_3.index t (1 : Fin 3) * 256 + 1 * t'.val = t'.val; omega
    | ⟨2, _⟩ => show win0_3.index t (2 : Fin 3) * 20 + 1 * p.val = p.val; omega
  rw [hemb, hout]
  unfold G
  simp only [iblk0_apply, iblk1_apply, iblk2_apply]

/-- An index of the result is in point `n`'s block iff each coordinate is in the block's range on its axis. -/
theorem mem_blk (t : Fin cfg0.N) (i : S32x256x20.Idx) :
    i ∈ ((cfg0.win 3).blk t).view.set ↔ ∀ a : Fin 3, win0_3.index t a * S1x256x20.size a ≤ (i a).val ∧ (i a).val < win0_3.index t a * S1x256x20.size a + S1x256x20.size a := by
  show i ∈ ((View.whole main_v0).slice (win0_3.rect t)).set ↔ _
  rw [View.set_slice_whole, Rect.mem_set_unit]
  exact Iff.rfl

/-- Every index `(n, t, p)` of the result lies in the block of point `n`. -/
theorem cover (i : S32x256x20.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 20 := (i 2).isLt
  refine ⟨⟨(i 0).val, hi0⟩, flush0_3 _, ?_⟩
  obtain ⟨-, -, -, -, -, -, -, -, e0, e1, e2⟩ := idx_facts ⟨(i 0).val, hi0⟩
  have e0' : win0_3.index ⟨(i 0).val, hi0⟩ (0 : Fin 3) = (i 0).val := e0
  rw [mem_blk hout]
  intro a
  match a with
  | ⟨0, _⟩ => show win0_3.index ⟨(i 0).val, hi0⟩ (0 : Fin 3) * 1 ≤ (i 0).val ∧ (i 0).val < win0_3.index ⟨(i 0).val, hi0⟩ (0 : Fin 3) * 1 + 1; omega
  | ⟨1, _⟩ => show win0_3.index ⟨(i 0).val, hi0⟩ (1 : Fin 3) * 256 ≤ (i 1).val ∧ (i 1).val < win0_3.index ⟨(i 0).val, hi0⟩ (1 : Fin 3) * 256 + 256; omega
  | ⟨2, _⟩ => show win0_3.index ⟨(i 0).val, hi0⟩ (2 : Fin 3) * 20 ≤ (i 2).val ∧ (i 2).val < win0_3.index ⟨(i 0).val, hi0⟩ (2 : Fin 3) * 20 + 20; omega

/-- THE RESULT ARRAY after the run is `G` of the three argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => flushed_eq m hout c t) (cover hout)

/-- The kernel's run with its result array named: `G` of the arguments, which end unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hout c), (h c).2⟩) (Value.run_blocks m ρ)

end Body

end Cert.KernelValue

end
-- ==== Proof.RefHmean.lean ====
/-
  The reference program read up to the attended sequence. For one batch entry `n` write `a t d = x0 (n, t, d)` and
  `b t d = x1 (n, t, d)`. The reference

  * divides every row of `a` and of `b` by the guarded root of the sum of its squares (stages 0 to 7 and 8 to 15);
  * contracts the two normalised sequences over the rows, `alpha d e = ∑ t, nb t d * na t e` (stage 16);
  * divides every column of `alpha` by the guarded root of the sum of its squares (stages 17 to 24);
  * contracts the normalised `b` with that matrix over the features, `∑ d, nb t d * alphan d e` (stage 25).

  Each stage is read at an index given by its coordinates; the keep-dimension broadcasts only re-route the index, and a
  contraction's two operands keep the reference's own order, so the result is `Cert.Spec.hmean a b` term for term.
-/
import proofs.«131025_j69939247448444_1_alg».proof.Proof.Gen.ReferenceIdeal.Read
import proofs.«131025_j69939247448444_1_alg».proof.Proof.Spec
import Idealize.ShloMosaic.Lib.ValueIdx
import Idealize.ShloMosaic.PureOps.Ideal.Laws

noncomputable section

namespace Cert.RefHmean

open scoped BigOperators
open Idealize.ShloMosaic Idealize.ShloMosaic.ValueIdx Cert.ReferenceIdeal Cert.ReferenceIdeal.Read

/-! ## Where the broadcasts and contractions send an index -/

/-- The row of the first argument that the sum of squares at `(n, t)` runs over, reached from `(n, t, d)` through the
    two keep-dimension broadcasts. -/
theorem idx_row0 (n : Fin 32) (t : Fin 256) (d k : Fin 512) :
    idx_main_v1 (idx_main_v2 (idx_main_v6 (ix3 n t d))) k = ix3 n t k :=
  funext fun a => Fin.ext (by match a with | ⟨0, _⟩ => rfl | ⟨1, _⟩ => rfl | ⟨2, _⟩ => rfl)

/-- The same for the second argument. -/
theorem idx_row1 (n : Fin 32) (t : Fin 256) (d k : Fin 512) :
    idx_main_v9 (idx_main_v10 (idx_main_v14 (ix3 n t d))) k = ix3 n t k :=
  funext fun a => Fin.ext (by match a with | ⟨0, _⟩ => rfl | ⟨1, _⟩ => rfl | ⟨2, _⟩ => rfl)

/-- The column of the correlation that the sum of squares at `(n, e)` runs over, reached from `(n, d, e)`. -/
theorem idx_col (n : Fin 32) (d e k : Fin 512) :
    idx_main_v18 (idx_main_v19 (idx_main_v23 (ix3 n d e))) k = ix3 n k e :=
  funext fun a => Fin.ext (by match a with | ⟨0, _⟩ => rfl | ⟨1, _⟩ => rfl | ⟨2, _⟩ => rfl)

/-- The correlation at `(n, d, e)` reads its left operand at row `k`, feature `d` … -/
theorem lidx16 (n : Fin 32) (d e : Fin 512) (k : Fin 256) : lidx_main_v16 (ix3 n d e) k = ix3 n k d :=
  funext fun a => Fin.ext (by match a with | ⟨0, _⟩ => rfl | ⟨1, _⟩ => rfl | ⟨2, _⟩ => rfl)

/-- … and its right operand at row `k`, feature `e`. -/
theorem ridx16 (n : Fin 32) (d e : Fin 512) (k : Fin 256) : ridx_main_v16 (ix3 n d e) k = ix3 n k e :=
  funext fun a => Fin.ext (by match a with | ⟨0, _⟩ => rfl | ⟨1, _⟩ => rfl | ⟨2, _⟩ => rfl)

/-- The last contraction at `(n, t, e)` reads its left operand at row `t`, feature `k` … -/
theorem lidx25 (n : Fin 32) (t : Fin 256) (e k : Fin 512) : lidx_main_v25 (ix3 n t e) k = ix3 n t k :=
  funext fun a => Fin.ext (by match a with | ⟨0, _⟩ => rfl | ⟨1, _⟩ => rfl | ⟨2, _⟩ => rfl)

/-- … and the normalised correlation at `(k, e)`. -/
theorem ridx25 (n : Fin 32) (t : Fin 256) (e k : Fin 512) : ridx_main_v25 (ix3 n t e) k = ix3 n k e :=
  funext fun a => Fin.ext (by match a with | ⟨0, _⟩ => rfl | ⟨1, _⟩ => rfl | ⟨2, _⟩ => rfl)

/-! ## The stages -/

/-- Stages 0 to 7: every row of the first argument divided by the guarded root of the sum of its squares. -/
theorem v7_apply (x0 : (⟨S32x256x512, .f32⟩ : BufTy).Contents (Elt Ideal)) (n : Fin 32) (t : Fin 256) (d : Fin 512) :
    val_main_v7 (F := Ideal) x0 (ix3 n t d) = Cert.Spec.rowNormed (fun t d => x0 (ix3 n t d)) t d := by
  rw [val_main_v7_apply, val_main_v6_apply, val_main_v5_apply, val_main_v4_apply, val_main_v2_apply, val_main_v3_apply,
    val_main_cst_0_apply, val_main_v1_apply, val_main_cst_apply]
  simp only [idx_row0, val_main_v0_apply, Ideal.hostDivf_def, Ideal.hostUnary_sqrt_def, Ideal.maximumf_def, Ideal.mulf_def,
    Ideal.ofBits_def, Ideal.ofBits_zero_f32, zero_add]
  rfl

/-- Stages 8 to 15: the same for the second argument. -/
theorem v15_apply (x1 : (⟨S32x256x512, .f32⟩ : BufTy).Contents (Elt Ideal)) (n : Fin 32) (t : Fin 256) (d : Fin 512) :
    val_main_v15 (F := Ideal) x1 (ix3 n t d) = Cert.Spec.rowNormed (fun t d => x1 (ix3 n t d)) t d := by
  rw [val_main_v15_apply, val_main_v14_apply, val_main_v13_apply, val_main_v12_apply, val_main_v10_apply, val_main_v11_apply,
    val_main_cst_2_apply, val_main_v9_apply, val_main_cst_1_apply]
  simp only [idx_row1, val_main_v8_apply, Ideal.hostDivf_def, Ideal.hostUnary_sqrt_def, Ideal.maximumf_def, Ideal.mulf_def,
    Ideal.ofBits_def, Ideal.ofBits_zero_f32, zero_add]
  rfl

/-- Stage 16: the correlation of the normalised second argument with the normalised first, over the rows. -/
theorem v16_apply (x0 x1 : (⟨S32x256x512, .f32⟩ : BufTy).Contents (Elt Ideal)) (n : Fin 32) (d e : Fin 512) :
    val_main_v16 (F := Ideal) x0 x1 (ix3 n d e)
      = Cert.Spec.corr (Cert.Spec.rowNormed (fun t d => x1 (ix3 n t d))) (Cert.Spec.rowNormed (fun t d => x0 (ix3 n t d))) d e := by
  rw [val_main_v16_apply]
  simp only [lidx16, ridx16, v15_apply, v7_apply]
  rfl

/-- Stages 17 to 24: every column of the correlation divided by the guarded root of the sum of its squares. -/
theorem v24_apply (x0 x1 : (⟨S32x256x512, .f32⟩ : BufTy).Contents (Elt Ideal)) (n : Fin 32) (d e : Fin 512) :
    val_main_v24 (F := Ideal) x0 x1 (ix3 n d e)
      = Cert.Spec.colNormed (fun d e => val_main_v16 (F := Ideal) x0 x1 (ix3 n d e)) d e := by
  rw [val_main_v24_apply, val_main_v23_apply, val_main_v22_apply, val_main_v21_apply, val_main_v19_apply, val_main_v20_apply,
    val_main_cst_4_apply, val_main_v18_apply, val_main_cst_3_apply]
  simp only [idx_col, val_main_v17_apply, Ideal.hostDivf_def, Ideal.hostUnary_sqrt_def, Ideal.maximumf_def, Ideal.mulf_def,
    Ideal.ofBits_def, Ideal.ofBits_zero_f32, zero_add]
  rfl

/-- The correlation of one batch entry, as a matrix, is the specification's. -/
theorem v16_eq_corr (x0 x1 : (⟨S32x256x512, .f32⟩ : BufTy).Contents (Elt Ideal)) (n : Fin 32) :
    (fun d e : Fin 512 => val_main_v16 (F := Ideal) x0 x1 (ix3 n d e))
      = Cert.Spec.corr (Cert.Spec.rowNormed (fun t d => x1 (ix3 n t d))) (Cert.Spec.rowNormed (fun t d => x0 (ix3 n t d))) :=
  funext fun d => funext fun e => v16_apply x0 x1 n d e

/-- Stage 25: the attended sequence. -/
theorem v25_apply (x0 x1 : (⟨Cert.ReferenceIdeal.S32x256x512, .f32⟩ : BufTy).Contents (Elt Ideal)) (n : Fin 32) (t : Fin 256) (e : Fin 512) :
    Cert.ReferenceIdeal.Read.val_main_v25 (F := Ideal) x0 x1 (ix3 n t e)
      = Cert.Spec.hmean (fun t d => x0 (ix3 n t d)) (fun t d => x1 (ix3 n t d)) t e := by
  rw [val_main_v25_apply]
  simp only [lidx25, ridx25, v15_apply, v24_apply, v16_eq_corr]
  rfl

end Cert.RefHmean

end
-- ==== Proof.RefPersp.lean ====
/-
  The last part of the reference, read at an index.

  The reference scales a row `a t` of the first input and the attended row `h t` by each weight row `W p`, divides each
  scaled row by the guarded root of the sum of its squares, multiplies the two normalised rows entry by entry and sums over
  the features. Read at the batch entry `n`, the row `t` and the weight row `p`, that is `Spec.perspR` of the three
  slices. The attended sequence is kept as a name: nothing here depends on how it is computed.
-/
import proofs.«131025_j69939247448444_1_alg».proof.Proof.Gen.ReferenceIdeal.Read
import proofs.«131025_j69939247448444_1_alg».proof.Proof.Spec
import Idealize.ShloMosaic.Lib.ValueIdx
import Idealize.ShloMosaic.PureOps.Ideal
import Idealize.ShloMosaic.PureOps.Ideal.Laws

noncomputable section

namespace Cert.RefPersp

open scoped BigOperators
open Idealize.ShloMosaic Idealize.ShloMosaic.ValueIdx Cert.ReferenceIdeal Cert.ReferenceIdeal.Read

/-- A sequence input: 32 batch entries of 256 rows of 512 features. -/
abbrev Seq := (⟨Cert.ReferenceIdeal.S32x256x512, .f32⟩ : BufTy).Contents (Elt Ideal)
/-- The weights: 20 rows of 512 features. -/
abbrev Wts := (⟨Cert.ReferenceIdeal.S20x512, .f32⟩ : BufTy).Contents (Elt Ideal)

/-! ### The first input's chain -/

/-- The scaled entry: the first input's feature times the weight's. -/
theorem v30_at (x0 : Seq) (x2 : Wts) (n : Fin 32) (t : Fin 256) (p : Fin 20) (d : Fin 512) :
    val_main_v30 (F := Ideal) x0 x2 (ix4 n t p d) = x0 (ix3 n t d) * x2 (ix2 p d) := by
  have e0 : idx_main_v26 (idx_main_v28 (ix4 n t p d)) = ix3 n t d :=
    funext fun a => Fin.ext (by match a with | ⟨0, _⟩ => rfl | ⟨1, _⟩ => rfl | ⟨2, _⟩ => rfl)
  have e2 : idx_main_v27 (idx_main_v29 (ix4 n t p d)) = ix2 p d :=
    funext fun a => Fin.ext (by match a with | ⟨0, _⟩ => rfl | ⟨1, _⟩ => rfl)
  rw [val_main_v30_apply, val_main_v28_apply, val_main_v29_apply, val_main_v26_apply, val_main_v27_apply, e0, e2]
  rfl

/-- The sum of the squares of a scaled row. -/
theorem v32_at (x0 : Seq) (x2 : Wts) (n : Fin 32) (t : Fin 256) (p : Fin 20) :
    val_main_v32 (F := Ideal) x0 x2 (ix3 n t p)
      = ∑ d : Fin 512, (x0 (ix3 n t d) * x2 (ix2 p d)) * (x0 (ix3 n t d) * x2 (ix2 p d)) := by
  rw [val_main_v32_apply, val_main_cst_5_apply]
  simp only [Ideal.ofBits_def, Ideal.ofBits_zero_f32, zero_add]
  refine Finset.sum_congr rfl fun d _ => ?_
  have e : idx_main_v32 (ix3 n t p) d = ix4 n t p d :=
    funext fun a => Fin.ext (by match a with | ⟨0, _⟩ => rfl | ⟨1, _⟩ => rfl | ⟨2, _⟩ => rfl | ⟨3, _⟩ => rfl)
  rw [e, val_main_v31_apply, v30_at]
  rfl

/-- The guarded root of that sum, spread back over the features. -/
theorem v37_at (x0 : Seq) (x2 : Wts) (n : Fin 32) (t : Fin 256) (p : Fin 20) (d : Fin 512) :
    val_main_v37 (F := Ideal) x0 x2 (ix4 n t p d)
      = Spec.nrm (∑ d' : Fin 512, (x0 (ix3 n t d') * x2 (ix2 p d')) * (x0 (ix3 n t d') * x2 (ix2 p d'))) := by
  have e : idx_main_v33 (idx_main_v37 (ix4 n t p d)) = ix3 n t p :=
    funext fun a => Fin.ext (by match a with | ⟨0, _⟩ => rfl | ⟨1, _⟩ => rfl | ⟨2, _⟩ => rfl)
  rw [val_main_v37_apply, val_main_v36_apply, val_main_v35_apply, val_main_v33_apply, val_main_v34_apply,
    val_main_cst_6_apply, e, v32_at]
  rfl

/-- The normalised scaled entry. -/
theorem v38_at (x0 : Seq) (x2 : Wts) (n : Fin 32) (t : Fin 256) (p : Fin 20) (d : Fin 512) :
    val_main_v38 (F := Ideal) x0 x2 (ix4 n t p d)
      = Ideal.div (x0 (ix3 n t d) * x2 (ix2 p d))
          (Spec.nrm (∑ d' : Fin 512, (x0 (ix3 n t d') * x2 (ix2 p d')) * (x0 (ix3 n t d') * x2 (ix2 p d')))) := by
  rw [val_main_v38_apply, v30_at, v37_at]
  rfl

/-! ### The attended sequence's chain: the same steps with the attended sequence in the first input's place -/

/-- The scaled entry: the attended feature times the weight's. -/
theorem v43_at (x0 x1 : Seq) (x2 : Wts) (n : Fin 32) (t : Fin 256) (p : Fin 20) (d : Fin 512) :
    val_main_v43 (F := Ideal) x0 x1 x2 (ix4 n t p d)
      = val_main_v25 (F := Ideal) x0 x1 (ix3 n t d) * x2 (ix2 p d) := by
  have e0 : idx_main_v39 (idx_main_v41 (ix4 n t p d)) = ix3 n t d :=
    funext fun a => Fin.ext (by match a with | ⟨0, _⟩ => rfl | ⟨1, _⟩ => rfl | ⟨2, _⟩ => rfl)
  have e2 : idx_main_v40 (idx_main_v42 (ix4 n t p d)) = ix2 p d :=
    funext fun a => Fin.ext (by match a with | ⟨0, _⟩ => rfl | ⟨1, _⟩ => rfl)
  rw [val_main_v43_apply, val_main_v41_apply, val_main_v42_apply, val_main_v39_apply, val_main_v40_apply, e0, e2]
  rfl

/-- The sum of the squares of a scaled attended row. -/
theorem v45_at (x0 x1 : Seq) (x2 : Wts) (n : Fin 32) (t : Fin 256) (p : Fin 20) :
    val_main_v45 (F := Ideal) x0 x1 x2 (ix3 n t p)
      = ∑ d : Fin 512, (val_main_v25 (F := Ideal) x0 x1 (ix3 n t d) * x2 (ix2 p d))
          * (val_main_v25 (F := Ideal) x0 x1 (ix3 n t d) * x2 (ix2 p d)) := by
  rw [val_main_v45_apply, val_main_cst_7_apply]
  simp only [Ideal.ofBits_def, Ideal.ofBits_zero_f32, zero_add]
  refine Finset.sum_congr rfl fun d _ => ?_
  have e : idx_main_v45 (ix3 n t p) d = ix4 n t p d :=
    funext fun a => Fin.ext (by match a with | ⟨0, _⟩ => rfl | ⟨1, _⟩ => rfl | ⟨2, _⟩ => rfl | ⟨3, _⟩ => rfl)
  rw [e, val_main_v44_apply, v43_at]
  rfl

/-- The guarded root of that sum, spread back over the features. -/
theorem v50_at (x0 x1 : Seq) (x2 : Wts) (n : Fin 32) (t : Fin 256) (p : Fin 20) (d : Fin 512) :
    val_main_v50 (F := Ideal) x0 x1 x2 (ix4 n t p d)
      = Spec.nrm (∑ d' : Fin 512, (val_main_v25 (F := Ideal) x0 x1 (ix3 n t d') * x2 (ix2 p d'))
          * (val_main_v25 (F := Ideal) x0 x1 (ix3 n t d') * x2 (ix2 p d'))) := by
  have e : idx_main_v46 (idx_main_v50 (ix4 n t p d)) = ix3 n t p :=
    funext fun a => Fin.ext (by match a with | ⟨0, _⟩ => rfl | ⟨1, _⟩ => rfl | ⟨2, _⟩ => rfl)
  rw [val_main_v50_apply, val_main_v49_apply, val_main_v48_apply, val_main_v46_apply, val_main_v47_apply,
    val_main_cst_8_apply, e, v45_at]
  rfl

/-- The normalised scaled attended entry. -/
theorem v51_at (x0 x1 : Seq) (x2 : Wts) (n : Fin 32) (t : Fin 256) (p : Fin 20) (d : Fin 512) :
    val_main_v51 (F := Ideal) x0 x1 x2 (ix4 n t p d)
      = Ideal.div (val_main_v25 (F := Ideal) x0 x1 (ix3 n t d) * x2 (ix2 p d))
          (Spec.nrm (∑ d' : Fin 512, (val_main_v25 (F := Ideal) x0 x1 (ix3 n t d') * x2 (ix2 p d'))
            * (val_main_v25 (F := Ideal) x0 x1 (ix3 n t d') * x2 (ix2 p d')))) := by
  rw [val_main_v51_apply, v43_at, v50_at]
  rfl

/-! ### The result -/

/-- The reference's last stage at `(n, t, p)` is the weighted cosine, in the arrangement that normalises the two scaled
    rows first, of the first input's and the attended sequence's slices at the batch entry `n`. -/
theorem v53_apply (x0 x1 : (⟨Cert.ReferenceIdeal.S32x256x512, .f32⟩ : BufTy).Contents (Elt Ideal))
    (x2 : (⟨Cert.ReferenceIdeal.S20x512, .f32⟩ : BufTy).Contents (Elt Ideal)) (n : Fin 32) (t : Fin 256) (p : Fin 20) :
    Cert.ReferenceIdeal.Read.val_main_v53 (F := Ideal) x0 x1 x2 (ix3 n t p)
      = Cert.Spec.perspR (fun t d => x0 (ix3 n t d))
          (fun t e => Cert.ReferenceIdeal.Read.val_main_v25 (F := Ideal) x0 x1 (ix3 n t e))
          (fun p d => x2 (ix2 p d)) t p := by
  rw [val_main_v53_apply, val_main_cst_9_apply]
  simp only [Ideal.ofBits_def, Ideal.ofBits_zero_f32, zero_add]
  unfold Spec.perspR
  refine Finset.sum_congr rfl fun d _ => ?_
  have e : idx_main_v53 (ix3 n t p) d = ix4 n t p d :=
    funext fun a => Fin.ext (by match a with | ⟨0, _⟩ => rfl | ⟨1, _⟩ => rfl | ⟨2, _⟩ => rfl | ⟨3, _⟩ => rfl)
  rw [e, val_main_v52_apply, v38_at, v51_at]
  rfl

end Cert.RefPersp

end
-- ==== Proof.Finite.lean ====
/-
  From the printed finiteness precondition to "every entry is a real number".

  The precondition is the conjunction of three tests `all (|x| < +∞)`, one per input. Each
  test is a reduction by `and` of an array of one-bit words over all axes; a conjunction of
  one-bit words is 1 exactly when both are, and a fold by `and` that ends at 1 met only 1s.
  So the hypothesis gives, at every index of every input, that the comparison `|x| < +∞`
  holds. Over the extended reals `|x| = max x (-x)`, and `max x (-x) < ⊤` says `x < ⊤`
  and `-x < ⊤`, that is `x ≠ ⊤` and `x ≠ ⊥`: `x` is the coercion of a real.
-/
import proofs.«131025_j69939247448444_1_alg».proof.Pre_finite_inputs
import proofs.«131025_j69939247448444_1_alg».proof.Proof.Gen.Pre_finite_inputs
import proofs.«131025_j69939247448444_1_alg».proof.Proof.LibMoments
import Idealize.ShloMosaic.Lib.ReduceAll
import Idealize.ShloMosaic.Lib.ValueIdx
import Idealize.ShloMosaic.Lib.ValueLayout
import Idealize.ShloMosaic.PureOps.Ideal
import Idealize.ShloMosaic.PureOps.Ideal.Laws

namespace Cert.Finite

open Idealize.ShloMosaic
open Cert.LibMoments

/-- The word `0x7F800000` denotes `+∞` in binary32. -/
theorem ofBits_inf : Ideal.ofBits .f32 0x7F800000#32 = (⊤ : EReal) := by
  simp [Ideal.ofBits, Ideal.ieee]

/-- One value: if the comparison `|x| < +∞` returns the word 1, then `x` is a real. -/
theorem isReal_of_abs_lt_inf (x : Ideal .f32)
    (h : FloatOps.cmpf .olt (FloatOps.hostAbsf x) (Ideal.ofBits .f32 0x7F800000#32) = 1#1) :
    IsReal (x : EReal) := by
  have hlt : max (x : EReal) (-(x : EReal)) < ⊤ := by
    have h' : Ideal.cmp .olt (max (x : EReal) (-(x : EReal))) (Ideal.ofBits .f32 0x7F800000#32) = 1#1 := h
    rw [ofBits_inf] at h'
    unfold Ideal.cmp at h'
    by_contra hn
    simp [hn] at h'
  rw [max_lt_iff] at hlt
  refine isReal_iff.2 ⟨ne_of_lt hlt.1, ?_⟩
  intro hb
  have : -(x : EReal) = ⊤ := by rw [hb]; exact EReal.neg_bot
  exact (ne_of_lt hlt.2) this

instance : Subsingleton Cert.Pre_finite_inputs.S_.Idx := ⟨fun a b => funext fun d => d.elim0⟩

theorem real_of_pre [Cert.Pre_finite_inputs.Facts]
    (x0 x1 : FVec Ideal Cert.Pre_finite_inputs.S32x256x512 .f32)
    (x2 : FVec Ideal Cert.Pre_finite_inputs.S20x512 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact isReal_of_abs_lt_inf (x0 i) (Host.reduce_andi_all _ _ _ _ _ h0' i)
  · exact isReal_of_abs_lt_inf (x1 i) (Host.reduce_andi_all _ _ _ _ _ h1 i)
  · exact isReal_of_abs_lt_inf (x2 i) (Host.reduce_andi_all _ _ _ _ _ h2 i)

end Cert.Finite
-- ==== Proof.lean ====
/-
  The kernel computes, per batch entry, a bilateral attentive-matching cosine: both sequences are row-normalised, their
  correlation over the rows is column-normalised into an attention matrix, the second sequence attends through it, and
  the result at `(n, t, p)` is the cosine of row `t` of the first sequence and of the attended sequence under the weights
  `W p`. The kernel takes three sums weighted by the squared weights and divides once; the reference scales both rows by
  `W p`, normalises each and sums the products. Up to the attended sequence the two programs perform the same
  operations in the same order (`Cert.Spec.hmean`), with no rounding left at the ideal instance; the last step differs by
  pulling the two positive divisors out of the sum, which is valid because finite inputs keep every intermediate value
  real (`Cert.SpecLaws`).

  The pieces: `Cert.KernelHmean` / `Cert.KernelPersp` read the body's store at an index; `Cert.KernelValue` tiles the 32
  blocks into the result array; `Cert.RefHmean` / `Cert.RefPersp` read the reference's stages at an index;
  `Cert.Finite` turns the precondition into "every entry is real". The kernel's frames and the reference's run are the
  generated modules.
-/
import proofs.«131025_j69939247448444_1_alg».proof.Defs
import proofs.«131025_j69939247448444_1_alg».proof.Proof.Gen.Kernel
import proofs.«131025_j69939247448444_1_alg».proof.Proof.Gen.Kernel.Skeleton
import proofs.«131025_j69939247448444_1_alg».proof.Proof.Gen.Kernel.Launch
import proofs.«131025_j69939247448444_1_alg».proof.Proof.Gen.Kernel.Points
import proofs.«131025_j69939247448444_1_alg».proof.Proof.Gen.Kernel.Frame
import proofs.«131025_j69939247448444_1_alg».proof.Proof.Gen.KernelIdeal
import proofs.«131025_j69939247448444_1_alg».proof.Proof.Gen.KernelIdeal.Skeleton
import proofs.«131025_j69939247448444_1_alg».proof.Proof.Gen.KernelIdeal.Launch
import proofs.«131025_j69939247448444_1_alg».proof.Proof.Gen.KernelIdeal.Points
import proofs.«131025_j69939247448444_1_alg».proof.Proof.Gen.KernelIdeal.Frame
import proofs.«131025_j69939247448444_1_alg».proof.Proof.Gen.ReferenceIdeal
import proofs.«131025_j69939247448444_1_alg».proof.Proof.Gen.KernelIdeal.Value
import proofs.«131025_j69939247448444_1_alg».proof.Proof.Gen.ReferenceIdeal.Run
import proofs.«131025_j69939247448444_1_alg».proof.Proof.Gen.ReferenceIdeal.Read
import proofs.«131025_j69939247448444_1_alg».proof.Proof.Gen.Pre_finite_inputs
import proofs.«131025_j69939247448444_1_alg».proof.Proof.SpecLaws
import proofs.«131025_j69939247448444_1_alg».proof.Proof.KernelHmean
import proofs.«131025_j69939247448444_1_alg».proof.Proof.KernelPersp
import proofs.«131025_j69939247448444_1_alg».proof.Proof.KernelValue
import proofs.«131025_j69939247448444_1_alg».proof.Proof.RefHmean
import proofs.«131025_j69939247448444_1_alg».proof.Proof.RefPersp
import proofs.«131025_j69939247448444_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.Spec Cert.LibMoments

/-- The body's one store at `(0, t, p)`: the weighted cosine of row `t` of the first block and of the sequence attended
    from the two blocks. -/
theorem body_store (x0 x1 : Vec Ideal Cert.KernelIdeal.S1x256x512 .f32) (x2 : Vec Ideal Cert.KernelIdeal.S20x512 .f32)
    (t : Fin 256) (p : Fin 20) :
    Cert.KernelIdeal.Gen.out0_3 (F := Ideal) x0 x1 x2 (ix3 (0 : Fin 1) t p)
      = perspK (fun t d => x0 (ix3 (0 : Fin 1) t d))
          (hmean (fun t d => x0 (ix3 (0 : Fin 1) t d)) (fun t d => x1 (ix3 (0 : Fin 1) t d)))
          (fun p d => x2 (ix2 p d)) t p :=
  Cert.KernelPersp.out_apply_of x0 x1 x2 _ (Cert.KernelHmean.pay3_apply x0 x1) t p

/-- On real inputs the reference's result is the kernel's function of the arguments: its stages read at an index are the
    second arrangement over the same attended sequence, and the two arrangements agree on real data. -/
theorem reference_eq (x0 x1 : Cert.KernelIdeal.S32x256x512.Idx → EReal) (x2 : Cert.KernelIdeal.S20x512.Idx → EReal)
    (h0 : ∀ i, IsReal (x0 i)) (h1 : ∀ i, IsReal (x1 i)) (h2 : ∀ i, IsReal (x2 i)) :
    Cert.ReferenceIdeal.Read.val_main_v53 (F := Ideal) x0 x1 x2 = Cert.KernelValue.G x0 x1 x2 := by
  funext i
  obtain ⟨n, t, p, rfl⟩ : ∃ (n : Fin 32) (t : Fin 256) (p : Fin 20), i = ix3 n t p := ⟨i 0, i 1, i 2, eq_ix3 i⟩
  refine (Cert.RefPersp.v53_apply x0 x1 x2 n t p).trans ?_
  simp only [Cert.RefHmean.v25_apply]
  refine (Cert.SpecLaws.perspR_eq_perspK _ _ _ (fun t d => h0 _)
    (fun t e => Cert.SpecLaws.hmean_isReal _ _ (fun t d => h0 _) (fun t d => h1 _) t e) (fun p d => h2 _) t p).trans ?_
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the result array at `Cert.KernelValue.G` of the arguments: the kernel by its blocks, the
    reference by its stages and the law on real data, the arguments real by the precondition. -/
theorem algebraic : Cert.algebraic_KernelIdeal_ReferenceIdeal := by
  intro m ρ m' ρ' hpre hagree
  refine ⟨_, _, (θ_run Cert.KernelIdeal.defs _ _).mono (fun r h c => ⟨(h c).1, (h c).1, (h c).2⟩)
    (Cert.KernelValue.run m ρ body_store), ?_⟩
  refine (θ_run Cert.ReferenceIdeal.defs _ _).mono (fun r h c => ?_)
    (Cert.ReferenceIdeal.Value.run (F := Ideal) m' ρ')
  obtain ⟨r0, r1, r2⟩ := Cert.Finite.real_of_pre _ _ _ (hpre c)
  have e : Cert.ReferenceIdeal.Value.res_main_v53 m' c
      = Cert.KernelValue.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
    rw [Cert.ReferenceIdeal.Read.val_main_v53_eq, (hagree c).1, (hagree c).2.1, (hagree c).2.2]
    exact reference_eq _ _ _ r0 r1 r2
  exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
